-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S1024x8192 : Shape := ⟨2, ![1024, 8192]⟩
abbrev S1024 : Shape := ⟨1, ![1024]⟩
abbrev S8192x1024 : Shape := ⟨2, ![8192, 1024]⟩
abbrev S8192 : Shape := ⟨1, ![8192]⟩
abbrev S8192x2 : Shape := ⟨2, ![8192, 2]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x8192 .f32) (main_arg1 : FVec F S1024x8192 .f32) (main_arg2 : FVec F S1024 .f32) (main_arg3 : FVec F S8192x1024 .f32) (main_arg4 : FVec F S8192 .f32) (main_arg5 : IVec S8192x2 32) (main_arg6 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S8192x8192 : Shape := ⟨2, ![8192, 8192]⟩
abbrev S1024x8192 : Shape := ⟨2, ![1024, 8192]⟩
abbrev S1024 : Shape := ⟨1, ![1024]⟩
abbrev S8192x1024 : Shape := ⟨2, ![8192, 1024]⟩
abbrev S8192 : Shape := ⟨1, ![8192]⟩
abbrev S8192x2 : Shape := ⟨2, ![8192, 2]⟩
abbrev S8192x1 : Shape := ⟨2, ![8192, 1]⟩
abbrev S_ : Shape := ⟨0, ![]⟩
abbrev S1x1024 : Shape := ⟨2, ![1, 1024]⟩
abbrev S1x8192 : Shape := ⟨2, ![1, 8192]⟩
abbrev S2x8x128 : Shape := ⟨3, ![2, 8, 128]⟩
abbrev S128x8192 : Shape := ⟨2, ![128, 8192]⟩
abbrev S128x1 : Shape := ⟨2, ![128, 1]⟩
abbrev S1x8x128 : Shape := ⟨3, ![1, 8, 128]⟩
abbrev S8x128 : Shape := ⟨2, ![8, 128]⟩
abbrev S256x8192 : Shape := ⟨2, ![256, 8192]⟩
abbrev S256x1024 : Shape := ⟨2, ![256, 1024]⟩
abbrev S128x1024 : Shape := ⟨2, ![128, 1024]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1024x1024 : Shape := ⟨2, ![1024, 1024]⟩

abbrev nBuf : Space → Nat
  | .hbm => 66
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S1024x8192, .f32⟩
  | .hbm, ⟨2, _⟩ => ⟨S1024, .f32⟩
  | .hbm, ⟨3, _⟩ => ⟨S8192x1024, .f32⟩
  | .hbm, ⟨4, _⟩ => ⟨S8192, .f32⟩
  | .hbm, ⟨5, _⟩ => ⟨S8192x2, .i32⟩
  | .hbm, ⟨6, _⟩ => ⟨S8192, .i32⟩
  | .hbm, ⟨7, _⟩ => ⟨S8192x1, .i32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x8192, .f32⟩
  | .hbm, ⟨29, _⟩ => ⟨S8192x8192, .bf16⟩
  | .hbm, ⟨30, _⟩ => ⟨S8192x8192, .bf16⟩
  | .hbm, ⟨31, _⟩ => ⟨S8192, .f32⟩
  | .hbm, ⟨32, _⟩ => ⟨S8192x1, .f32⟩
  | .hbm, ⟨33, _⟩ => ⟨S1024x8192, .bf16⟩
  | .hbm, ⟨34, _⟩ => ⟨S8192x1024, .bf16⟩
  | .hbm, ⟨35, _⟩ => ⟨S1x1024, .f32⟩
  | .hbm, ⟨36, _⟩ => ⟨S1x8192, .f32⟩
  | .hbm, ⟨37, _⟩ => ⟨S2x8x128, .f32⟩
  | .hbm, ⟨38, _⟩ => ⟨S_, .f32⟩
  | .hbm, ⟨39, _⟩ => ⟨S_, .f32⟩
  | .hbm, ⟨40, _⟩ => ⟨S1024x8192, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S128x1, .f32⟩
  | .local _ .vmem, ⟨5, _⟩ => ⟨S128x1, .f32⟩
  | .local _ .vmem, ⟨6, _⟩ => ⟨S1024x8192, .bf16⟩
  | .local _ .vmem, ⟨7, _⟩ => ⟨S1x1024, .f32⟩
  | .local _ .vmem, ⟨8, _⟩ => ⟨S8192x1024, .bf16⟩
  | .local _ .vmem, ⟨9, _⟩ => ⟨S1x8192, .f32⟩
  | .local _ .vmem, ⟨10, _⟩ => ⟨S1x8x128, .f32⟩
  | .local _ .vmem, ⟨11, _⟩ => ⟨S1x8x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_v30 : Ref sig .tc := ⟨.hbm, 49, rfl⟩
abbrev main_v31 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_call3_v0 : Ref sig .tc := ⟨.hbm, 58, rfl⟩
abbrev main_call3_cst : Ref sig .tc := ⟨.hbm, 59, rfl⟩
abbrev main_call3_v1 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def k0_mult1 : BitVec 32 :=
  let c0_i32_13 : BitVec 32 := 0#32
  let c1024_i32 : BitVec 32 := 1024#32
  let v32 : BitVec 32 := Scalar.muli c0_i32_13 c1024_i32
  v32
def k0_off1 (c0_i32_13 : BitVec 32) : Fin 2 → Nat :=
  let c1024_i32 : BitVec 32 := 1024#32
  let v32 : BitVec 32 := Scalar.muli c0_i32_13 c1024_i32
  let v33 : BitVec 32 := v32
  let v34 : Index := Scalar.indexCast v33
  let c0_14 : Index := 0#32
  ![v34.toNat, 0]
def k0_off2 (c0_i32_13 : BitVec 32) : Fin 2 → Nat :=
  let c0_15 : Index := 0#32
  let c1024_i32 : BitVec 32 := 1024#32
  let v32 : BitVec 32 := Scalar.muli c0_i32_13 c1024_i32
  let v33 : BitVec 32 := v32
  let v37 : Index := Scalar.indexCast v33
  ![0, v37.toNat]
def k0_off3 (c0_i32_13 : BitVec 32) : Fin 2 → Nat :=
  let c0_18 : Index := 0#32
  let c1024_i32 : BitVec 32 := 1024#32
  let v32 : BitVec 32 := Scalar.muli c0_i32_13 c1024_i32
  let v33 : BitVec 32 := v32
  let v51 : Index := Scalar.indexCast v33
  ![0, v51.toNat]
def k0_mult2 : BitVec 32 :=
  let c1_i32 : BitVec 32 := 1#32
  let c1024_i32_22 : BitVec 32 := 1024#32
  let v69 : BitVec 32 := Scalar.muli c1_i32 c1024_i32_22
  v69
def k0_mult3 : BitVec 32 :=
  let c2_i32 : BitVec 32 := 2#32
  let c1024_i32_31 : BitVec 32 := 1024#32
  let v106 : BitVec 32 := Scalar.muli c2_i32 c1024_i32_31
  v106
def k0_mult4 : BitVec 32 :=
  let c3_i32 : BitVec 32 := 3#32
  let c1024_i32_40 : BitVec 32 := 1024#32
  let v143 : BitVec 32 := Scalar.muli c3_i32 c1024_i32_40
  v143
def k0_mult5 : BitVec 32 :=
  let c4_i32 : BitVec 32 := 4#32
  let c1024_i32_49 : BitVec 32 := 1024#32
  let v180 : BitVec 32 := Scalar.muli c4_i32 c1024_i32_49
  v180
def k0_mult6 : BitVec 32 :=
  let c5_i32 : BitVec 32 := 5#32
  let c1024_i32_58 : BitVec 32 := 1024#32
  let v217 : BitVec 32 := Scalar.muli c5_i32 c1024_i32_58
  v217
def k0_mult7 : BitVec 32 :=
  let c6_i32 : BitVec 32 := 6#32
  let c1024_i32_67 : BitVec 32 := 1024#32
  let v254 : BitVec 32 := Scalar.muli c6_i32 c1024_i32_67
  v254
def k0_mult8 : BitVec 32 :=
  let c7_i32 : BitVec 32 := 7#32
  let c1024_i32_76 : BitVec 32 := 1024#32
  let v291 : BitVec 32 := Scalar.muli c7_i32 c1024_i32_76
  v291
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  shapeCasts_S8192_S8192x1 : S8192.ShapeCasts S8192x1
  shapeCasts_S1024_S1x1024 : S1024.ShapeCasts S1x1024
  shapeCasts_S8192_S1x8192 : S8192.ShapeCasts S1x8192
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  concatenates_S128x8192_S128x8192_S256x8192_d0 : Shape.Concatenates [S128x8192, S128x8192] S256x8192 0
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S128x1024 : S256x1024.Slices ![0, 0] S128x1024
  slices_S256x1024_o128_0_S128x1024 : S256x1024.Slices ![128, 0] S128x1024
  reduces_S128x1024_S128 : S128x1024.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  h_S1024x1024 : 0 < S1024x1024.numel
  shapeCasts_S1024x1024_S1024x1024 : S1024x1024.ShapeCasts S1024x1024
  h_S128x1024 : 0 < S128x1024.numel
  shapeCasts_S128x1024_S128x1024 : S128x1024.ShapeCasts S128x1024
  iota_S8x128_d0_w32 : S8x128.Iotas .tc 32 [0]
  iota_S8x128_d1_w32 : S8x128.Iotas .tc 32 [1]
  reducesTo_S2x8x128_S_d0_1_2 : S2x8x128.ReducesTo [0, 1, 2] S_
  h_S_ : 0 < S_.numel
  reducesTo_S1024x8192_S1024_d1 : S1024x8192.ReducesTo [1] S1024
  reducesTo_S1024_S_d0 : S1024.ReducesTo [0] S_
  reducesTo_S8192x1024_S8192_d1 : S8192x1024.ReducesTo [1] S8192
  reducesTo_S8192_S_d0 : S8192.ReducesTo [0] S_
  gather_S8192x8192_S8192x1_S8192x8192_1_0_n_n_0_1_18192_wf : GatherDims.WF S8192x8192 S8192x1 S8192x8192 [1] [0] [] [0] [] 1 ![1, 8192]
  dot_S256x8192_S1024x8192_S256x1024_1_1_0_0_n_n_wf : DotDims.WF S256x8192 S1024x8192 S256x1024 [1] [1] [0] [0] [] []
  dot_S256x1024_S1024x1024_S256x1024_1_1_0_0_n_n_wf : DotDims.WF S256x1024 S1024x1024 S256x1024 [1] [1] [0] [0] [] []
  hrank0 : 0 < grid0.rank
  k0_mult1_dvd : 1024 ∣ k0_mult1.toNat
  k0_off1_inb : ∀ (r : Fin 8), ∀ a, (k0_off1 (BitVec.ofNat 32 r.val)) a + S1024x1024.size a ≤ S8192x1024.size a
  k0_off2_inb : ∀ (r : Fin 8), ∀ a, (k0_off2 (BitVec.ofNat 32 r.val)) a + S1x1024.size a ≤ S1x8192.size a
  k0_off3_inb : ∀ (r : Fin 8), ∀ a, (k0_off3 (BitVec.ofNat 32 r.val)) a + S128x1024.size a ≤ S128x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .bf16 = 32 ∨ (Rect.block (s := S8192x8192) S128x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .bf16 = 32 ∨ (Rect.block (s := S8192x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8192.size a ≤ S1024x8192.size a
  hwx0_3 : ∀ i : grid0.Coords, EltTy.bits .bf16 = 32 ∨ (Rect.block (s := S1024x8192) S1024x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x1024.size a ≤ S8192x1024.size a
  hwx0_5 : ∀ i : grid0.Coords, EltTy.bits .bf16 = 32 ∨ (Rect.block (s := S8192x1024) S8192x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def dot_S256x8192_S1024x8192_S256x1024_1_1_0_0_n_n : DotDims S256x8192 S1024x8192 S256x1024 where
  lhsContracting := [1]
  rhsContracting := [1]
  lhsNonContracting := [0]
  rhsNonContracting := [0]
  lhsBatch := []
  rhsBatch := []
  wf := dot_S256x8192_S1024x8192_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v18) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S8192x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S1024x8192 : Shape := ⟨2, ![1024, 8192]⟩
abbrev S1024 : Shape := ⟨1, ![1024]⟩
abbrev S8192x1024 : Shape := ⟨2, ![8192, 1024]⟩
abbrev S8192 : Shape := ⟨1, ![8192]⟩
abbrev S8192x2 : Shape := ⟨2, ![8192, 2]⟩
abbrev S8192x1 : Shape := ⟨2, ![8192, 1]⟩
abbrev S_ : Shape := ⟨0, ![]⟩
abbrev S1x1024 : Shape := ⟨2, ![1, 1024]⟩
abbrev S1x8192 : Shape := ⟨2, ![1, 8192]⟩

abbrev nBuf : Space → Nat
  | .hbm => 152
  | .vmem => 0
  | .smem => 0
  | _ => 0

abbrev hbmTy0_0 (i : Nat) : BufTy := match i % 128 with
  | 0 => ⟨S8192x8192, .f32⟩
  | 1 => ⟨S1024x8192, .f32⟩
  | 2 => ⟨S1024, .f32⟩
  | 3 => ⟨S8192x1024, .f32⟩
  | 4 => ⟨S8192, .f32⟩
  | 5 => ⟨S8192x2, .i32⟩
  | 6 => ⟨S8192, .i32⟩
  | 7 => ⟨S8192x1, .i32⟩
  | 8 => ⟨S8192, .i32⟩
  | 9 => ⟨S8192x1, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x8192, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x8192, .f32⟩
  | 29 => ⟨S8192, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192, .f32⟩
  | 61 => ⟨S8192, .f32⟩
  | 62 => ⟨S_, .f32⟩
  | 63 => ⟨S_, .f32⟩
  | 64 => ⟨S_, .f32⟩
  | 65 => ⟨S_, .f32⟩
  | 66 => ⟨S1024x8192, .f32⟩
  | 67 => ⟨S_, .f32⟩
  | 68 => ⟨S1024, .f32⟩
  | 69 => ⟨S1024, .f32⟩
  | 70 => ⟨S_, .f32⟩
  | 71 => ⟨S_, .f32⟩
  | 72 => ⟨S_, .f32⟩
  | 73 => ⟨S_, .f32⟩
  | 74 => ⟨S1024, .f32⟩
  | 75 => ⟨S_, .f32⟩
  | 76 => ⟨S_, .f32⟩
  | 77 => ⟨S_, .f32⟩
  | 78 => ⟨S_, .f32⟩
  | 79 => ⟨S1024x8192, .f32⟩
  | 80 => ⟨S8192x8192, .f32⟩
  | 81 => ⟨S1x8192, .f32⟩
  | 82 => ⟨S8192x8192, .f32⟩
  | 83 => ⟨S8192x8192, .f32⟩
  | 84 => ⟨S8192x8192, .f32⟩
  | 85 => ⟨S8192x8192, .f32⟩
  | 86 => ⟨S_, .f32⟩
  | 87 => ⟨S8192x8192, .f32⟩
  | 88 => ⟨S8192x8192, .f32⟩
  | 89 => ⟨S_, .f32⟩
  | 90 => ⟨S8192x8192, .f32⟩
  | 91 => ⟨S8192x8192, .f32⟩
  | 92 => ⟨S1024x8192, .f32⟩
  | 93 => ⟨S8192x8192, .f32⟩
  | 94 => ⟨S1x8192, .f32⟩
  | 95 => ⟨S8192x8192, .f32⟩
  | 96 => ⟨S8192x8192, .f32⟩
  | 97 => ⟨S8192x8192, .f32⟩
  | 98 => ⟨S8192x8192, .f32⟩
  | 99 => ⟨S_, .f32⟩
  | 100 => ⟨S8192x8192, .f32⟩
  | 101 => ⟨S8192x8192, .f32⟩
  | 102 => ⟨S_, .f32⟩
  | 103 => ⟨S8192x8192, .f32⟩
  | 104 => ⟨S8192x8192, .f32⟩
  | 105 => ⟨S8192x8192, .f32⟩
  | 106 => ⟨S8192x8192, .f32⟩
  | 107 => ⟨S_, .f32⟩
  | 108 => ⟨S8192, .f32⟩
  | 109 => ⟨S8192, .f32⟩
  | 110 => ⟨S8192, .f32⟩
  | 111 => ⟨S_, .f32⟩
  | 112 => ⟨S_, .f32⟩
  | 113 => ⟨S_, .f32⟩
  | 114 => ⟨S8192x1024, .f32⟩
  | 115 => ⟨S_, .f32⟩
  | 116 => ⟨S8192, .f32⟩
  | 117 => ⟨S8192, .f32⟩
  | 118 => ⟨S_, .f32⟩
  | 119 => ⟨S_, .f32⟩
  | 120 => ⟨S_, .f32⟩
  | 121 => ⟨S8192, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x8192, .f32⟩

abbrev hbmTy0_1 (i : Nat) : BufTy := match i % 128 with
  | 0 => ⟨S_, .f32⟩
  | 1 => ⟨S8192, .f32⟩
  | 2 => ⟨S8192, .i1⟩
  | 3 => ⟨S_, .f32⟩
  | 4 => ⟨S_, .f32⟩
  | 5 => ⟨S8192, .f32⟩
  | 6 => ⟨S8192, .f32⟩
  | 7 => ⟨S8192, .f32⟩
  | 8 => ⟨S8192x8192, .f32⟩
  | 9 => ⟨S8192x8192, .f32⟩
  | 10 => ⟨S_, .f32⟩
  | 11 => ⟨S8192, .f32⟩
  | 12 => ⟨S8192, .f32⟩
  | 13 => ⟨S8192x8192, .f32⟩
  | 14 => ⟨S8192x8192, .f32⟩
  | 15 => ⟨S_, .f32⟩
  | 16 => ⟨S8192, .f32⟩
  | 17 => ⟨S8192, .f32⟩
  | 18 => ⟨S8192, .f32⟩
  | 19 => ⟨S8192, .f32⟩
  | 20 => ⟨S_, .f32⟩
  | 21 => ⟨S_, .f32⟩
  | 22 => ⟨S_, .f32⟩
  | 23 => ⟨S_, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_call2_v0 : Ref sig .tc := ⟨.hbm, 74, rfl⟩
abbrev main_call2_cst : Ref sig .tc := ⟨.hbm, 75, rfl⟩
abbrev main_call2_v1 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_v0 : Ref sig .tc := ⟨.hbm, 106, rfl⟩
abbrev main_call3_cst : Ref sig .tc := ⟨.hbm, 107, rfl⟩
abbrev main_call3_v1 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_call4_v0 : Ref sig .tc := ⟨.hbm, 114, rfl⟩
abbrev main_call4_cst : Ref sig .tc := ⟨.hbm, 115, rfl⟩
abbrev main_call4_v1 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_call5_v0 : Ref sig .tc := ⟨.hbm, 121, rfl⟩
abbrev main_call5_cst : Ref sig .tc := ⟨.hbm, 122, rfl⟩
abbrev main_call5_v1 : Ref sig .tc := ⟨.hbm, 123, rfl⟩
abbrev main_v81 : Ref sig .tc := ⟨.hbm, 124, rfl⟩
abbrev main_v82 : Ref sig .tc := ⟨.hbm, 125, rfl⟩
abbrev main_cst_16 : Ref sig .tc := ⟨.hbm, 126, rfl⟩
abbrev main_v83 : Ref sig .tc := ⟨.hbm, 127, rfl⟩
abbrev main_cst_17 : Ref sig .tc := ⟨.hbm, 128, rfl⟩
abbrev main_v84 : Ref sig .tc := ⟨.hbm, 129, rfl⟩
abbrev main_v85 : Ref sig .tc := ⟨.hbm, 130, rfl⟩
abbrev main_cst_18 : Ref sig .tc := ⟨.hbm, 131, rfl⟩
abbrev main_cst_19 : Ref sig .tc := ⟨.hbm, 132, rfl⟩
abbrev main_call6_v0 : Ref sig .tc := ⟨.hbm, 133, rfl⟩
abbrev main_call6_v1 : Ref sig .tc := ⟨.hbm, 134, rfl⟩
abbrev main_v86 : Ref sig .tc := ⟨.hbm, 135, rfl⟩
abbrev main_v87 : Ref sig .tc := ⟨.hbm, 136, rfl⟩
abbrev main_call7_v0 : Ref sig .tc := ⟨.hbm, 137, rfl⟩
abbrev main_call7_cst : Ref sig .tc := ⟨.hbm, 138, rfl⟩
abbrev main_call7_v1 : Ref sig .tc := ⟨.hbm, 139, rfl⟩
abbrev main_v88 : Ref sig .tc := ⟨.hbm, 140, rfl⟩
abbrev main_v89 : Ref sig .tc := ⟨.hbm, 141, rfl⟩
abbrev main_call8_v0 : Ref sig .tc := ⟨.hbm, 142, rfl⟩
abbrev main_call8_cst : Ref sig .tc := ⟨.hbm, 143, rfl⟩
abbrev main_call8_v1 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_20 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  transposes_S1024x8192_S8192x1024_1_0 : S1024x8192.Transposes [1, 0] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  reducesTo_S8192_S_d0 : S8192.ReducesTo [0] S_
  reducesTo_S1024x8192_S1024_d1 : S1024x8192.ReducesTo [1] S1024
  reducesTo_S1024_S_d0 : S1024.ReducesTo [0] S_
  transposes_S8192x1024_S1024x8192_1_0 : S8192x1024.Transposes [1, 0] S1024x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  gather_S8192x8192_S8192x1_S8192x8192_1_0_n_n_0_1_18192_wf : GatherDims.WF S8192x8192 S8192x1 S8192x8192 [1] [0] [] [0] [] 1 ![1, 8192]
  dot_S8192x8192_S8192x1024_S8192x1024_1_0_0_1_n_n_wf : DotDims.WF S8192x8192 S8192x1024 S8192x1024 [1] [0] [0] [1] [] []
  dot_S8192x1024_S1024x8192_S8192x8192_1_0_0_1_n_n_wf : DotDims.WF S8192x1024 S1024x8192 S8192x8192 [1] [0] [0] [1] [] []

variable [Facts₀]

def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.EdgeTerms.lean ====
/-
  The loss both programs compute, as mathematics over the extended reals.

  An edge e carries two feature rows xi, xj (rows of the gathered matrices) and a label l. With
  enc x = σ(W1·x + b1) (1024 units) and dec h = σ(W2·h + b2) (8192 units), σ the logistic function,
  the edge contributes
      ‖enc xi − enc xj‖·l,   ‖dec(enc xi) − dec(enc xj)‖·l,   w(l)·(‖xi − dec(enc xi)‖ + ‖xj − dec(enc xj)‖),
  where ‖·‖ is the Euclidean norm written as sqrt of a sum of squares and w(l) is 10 where l ≥ 1, else 1.
  The reference sums each of the three terms over all 8192 edges; the kernel sums them tile by tile (64 tiles of
  128 edges), and inside a tile sums the 8192 squares of a decoded row in 8 chunks of 1024. Addition on the extended
  reals is commutative and associative, so the two groupings agree; no finiteness is used.
-/
import Idealize.ShloMosaic.PureOps.Ideal
import Idealize.ShloMosaic.PureOps.Ideal.Laws
import Mathlib.Algebra.BigOperators.Fin
import Mathlib.Algebra.BigOperators.Group.Finset.Basic

noncomputable section

namespace Cert.EdgeLoss

open Idealize.ShloMosaic

/-- One logistic unit: σ(Σₙ x n · w n + b). -/
def act {ι : Type} [Fintype ι] (x w : ι → EReal) (b : EReal) : EReal :=
  Ideal.logistic ((∑ n, x n * w n) + b)

/-- The Euclidean distance of two rows, as sqrt of the sum of squared differences. -/
def dist {ι : Type} [Fintype ι] (u v : ι → EReal) : EReal :=
  Ideal.sqrt (∑ i, (u i - v i) * (u i - v i))

/-- The label's weight on the reconstruction term: 10 where the label is at least 1, else 1
    (the three f32 words are 1.0, 10.0 and 1.0; they are never evaluated). -/
def weight (l : EReal) : EReal :=
  Scalar.select (FloatOps.cmpf (F := Ideal) (φ := .f32) .oge l (Ideal.ofBits .f32 0x3F800000#32))
    (Ideal.ofBits .f32 0x41200000#32) (Ideal.ofBits .f32 0x3F800000#32)

section terms

variable (W1 : Fin 1024 → Fin 8192 → EReal) (b1 : Fin 1024 → EReal)
  (W2 : Fin 8192 → Fin 1024 → EReal) (b2 : Fin 8192 → EReal)

/-- The encoder layer on a feature row. -/
def enc (x : Fin 8192 → EReal) : Fin 1024 → EReal := fun k => act x (W1 k) (b1 k)

/-- The decoder layer on a hidden row. -/
def dec (h : Fin 1024 → EReal) : Fin 8192 → EReal := fun n => act h (W2 n) (b2 n)

/-- Encode then decode. -/
def rec (x : Fin 8192 → EReal) : Fin 8192 → EReal := dec W2 b2 (enc W1 b1 x)

/-- The first-layer term of an edge. -/
def term1 (xi xj : Fin 8192 → EReal) (l : EReal) : EReal := dist (enc W1 b1 xi) (enc W1 b1 xj) * l

/-- The second-layer term of an edge. -/
def term2 (xi xj : Fin 8192 → EReal) (l : EReal) : EReal :=
  dist (rec W1 b1 W2 b2 xi) (rec W1 b1 W2 b2 xj) * l

/-- The reconstruction term of an edge. -/
def term3 (xi xj : Fin 8192 → EReal) (l : EReal) : EReal :=
  weight l * (dist xi (rec W1 b1 W2 b2 xi) + dist xj (rec W1 b1 W2 b2 xj))

/-- What one tile of 128 edges adds to the kernel's accumulator. -/
def tileLoss (xi xj : Fin 128 → Fin 8192 → EReal) (l : Fin 128 → EReal) : EReal :=
  ((∑ r, term1 W1 b1 (xi r) (xj r) (l r)) + ∑ r, term2 W1 b1 W2 b2 (xi r) (xj r) (l r))
    + ∑ r, term3 W1 b1 W2 b2 (xi r) (xj r) (l r)

/-- The three sums over all edges, grouped as the reference groups them. -/
def edgeLoss (Xi Xj : Fin 8192 → Fin 8192 → EReal) (lab : Fin 8192 → EReal) : EReal :=
  ((∑ e, term1 W1 b1 (Xi e) (Xj e) (lab e)) + ∑ e, term2 W1 b1 W2 b2 (Xi e) (Xj e) (lab e))
    + ∑ e, term3 W1 b1 W2 b2 (Xi e) (Xj e) (lab e)

end terms

/-- Edge number r of tile T. -/
def edgeOf (T : Fin 64) (r : Fin 128) : Fin 8192 := ⟨128 * T.val + r.val, by omega⟩

/-- Column number j of chunk c. -/
def colOf (c : Fin 8) (j : Fin 1024) : Fin 8192 := ⟨1024 * c.val + j.val, by omega⟩

/-- A sum over the 8192 edges is the sum over the 64 tiles of the sums over a tile's 128 edges. -/
theorem sum_edges_eq_tiles (f : Fin 8192 → EReal) : ∑ e, f e = ∑ T : Fin 64, ∑ r : Fin 128, f (edgeOf T r) := by
  rw [← Finset.sum_product', Finset.univ_product_univ]
  refine (Fintype.sum_equiv (finProdFinEquiv (m := 64) (n := 128)) _ _ (fun p => ?_)).symm
  refine congrArg f (Fin.ext ?_)
  show 128 * p.1.val + p.2.val = p.2.val + 128 * p.1.val
  omega

/-- A sum over the 8192 columns is the sum over the 8 chunks of the sums over a chunk's 1024 columns. -/
theorem sum_cols_eq_chunks (f : Fin 8192 → EReal) : ∑ n, f n = ∑ c : Fin 8, ∑ j : Fin 1024, f (colOf c j) := by
  rw [← Finset.sum_product', Finset.univ_product_univ]
  refine (Fintype.sum_equiv (finProdFinEquiv (m := 8) (n := 1024)) _ _ (fun p => ?_)).symm
  refine congrArg f (Fin.ext ?_)
  show 1024 * p.1.val + p.2.val = p.2.val + 1024 * p.1.val
  omega

/-- The kernel's accumulation of the eight chunk sums from zero, left to right, is the sum over all columns. -/
theorem chunks_from_zero (f : Fin 8192 → EReal) :
    ((((((((0 + ∑ j, f (colOf 0 j)) + ∑ j, f (colOf 1 j)) + ∑ j, f (colOf 2 j)) + ∑ j, f (colOf 3 j))
      + ∑ j, f (colOf 4 j)) + ∑ j, f (colOf 5 j)) + ∑ j, f (colOf 6 j)) + ∑ j, f (colOf 7 j)) = ∑ n, f n := by
  rw [sum_cols_eq_chunks, Fin.sum_univ_eight, zero_add]

/-- The tiles' contributions add up to the three sums over all edges. -/
theorem sum_tileLoss (W1 : Fin 1024 → Fin 8192 → EReal) (b1 : Fin 1024 → EReal)
    (W2 : Fin 8192 → Fin 1024 → EReal) (b2 : Fin 8192 → EReal)
    (Xi Xj : Fin 8192 → Fin 8192 → EReal) (lab : Fin 8192 → EReal) :
    ∑ T : Fin 64, tileLoss W1 b1 W2 b2 (fun r => Xi (edgeOf T r)) (fun r => Xj (edgeOf T r)) (fun r => lab (edgeOf T r))
      = edgeLoss W1 b1 W2 b2 Xi Xj lab := by
  unfold tileLoss edgeLoss
  rw [Finset.sum_add_distrib, Finset.sum_add_distrib, sum_edges_eq_tiles, sum_edges_eq_tiles, sum_edges_eq_tiles]

end Cert.EdgeLoss

end
-- ==== Proof.RefLoss.lean ====
/-
  The reference's result over the extended reals: its three sums over the edges, grouped as it groups them, plus
  the weight-norm term. The gathered feature rows, the labels as floats and the weight-norm term are kept as the
  terms of the arguments the reference computes them by.

  Read at an index, each stage of the reference is its operands at an index: a matrix product is the sum over the
  contracted coordinate, a bias is read at the unit, the logistic function appears written out as 1 / (1 + exp (-z)),
  a norm as the square root of a row sum of squares started from zero, and each total as zero plus the sum over the
  edges. So the encoder and the decoder are read at (edge, unit), then the four norms of an edge, then the three terms
  of an edge, then their three sums; the zeros drop out by 0 + a = a, and the sums come out grouped as the edge loss
  groups them.
-/
import proofs.«403131_j63050119906009_2_alg».proof.Proof.RefReadP
import proofs.«403131_j63050119906009_2_alg».proof.Proof.EdgeTerms
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

set_option maxRecDepth 16384

noncomputable section

namespace Cert.ReferenceIdeal.Loss

open Cert.ReferenceIdeal Cert.ReferenceIdeal.Gen Cert.ReferenceIdeal.ReadP Cert.EdgeLoss Idealize.ShloMosaic Idealize.ShloMosaic.TcCoe Idealize.ShloMosaic.ValueIdx

/-- The logistic function written out as 1 / (1 + exp (-z)), the two ones as f32 words, is the logistic function. -/
theorem sigmoid_expanded (z : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) z)))
      = Ideal.logistic z := by
  simp only [Ideal.hostDivf_def, Ideal.addf_def, Ideal.hostUnary_exp_def, Ideal.hostNegf_def, Ideal.negf_def, Ideal.ofBits_def,
    Ideal.ofBits_one_f32]
  rfl

/-- A sum over the rank-1 index set of the 8192 edges is the sum over the edges. -/
theorem sum_edge_indices (f : S8192.Idx → EReal) : ∑ j : S8192.Idx, f j = ∑ e : Fin 8192, f (ix1 e) :=
  (Equiv.sum_comp (idxEquiv1 (n := 8192)).symm f).symm

/-- A square root of a row sum of squares started from the zero word is the distance of the two rows. -/
theorem sqrt_zero_add_sum_sq {ι : Type} [Fintype ι] (u v : ι → EReal) :
    FloatOps.hostUnary (F := Ideal) (φ := .f32) .sqrt
      (FloatOps.ofBits (F := Ideal) .f32 0x00000000#32 + ∑ k, FloatOps.mulf (F := Ideal) (φ := .f32)
        (FloatOps.subf (F := Ideal) (φ := .f32) (u k) (v k)) (FloatOps.subf (F := Ideal) (φ := .f32) (u k) (v k)))
      = dist u v := by
  simp only [Ideal.hostUnary_sqrt_def, Ideal.ofBits_def, Ideal.ofBits_zero_f32, zero_add, Ideal.mulf_def, Ideal.subf_def]
  rfl

section
variable (x0 : (⟨S8192x8192, .f32⟩ : BufTy).Contents (Elt Ideal)) (x1 : (⟨S1024x8192, .f32⟩ : BufTy).Contents (Elt Ideal))
    (x2 : (⟨S1024, .f32⟩ : BufTy).Contents (Elt Ideal)) (x3 : (⟨S8192x1024, .f32⟩ : BufTy).Contents (Elt Ideal))
    (x4 : (⟨S8192, .f32⟩ : BufTy).Contents (Elt Ideal)) (x5 : (⟨S8192x2, .i32⟩ : BufTy).Contents (Elt Ideal))
    (x6 : (⟨S8192, .i32⟩ : BufTy).Contents (Elt Ideal))

/-! ### The index functions of the reference's operations, at an edge and a unit -/

theorem lidx_v20 (e : Fin 8192) (k : Fin 1024) (n : Fin 8192) : lidx_main_v20 (ix2 e k) n = ix2 e n :=
  funext fun a => Fin.ext (by match a with | ⟨0, _⟩ => rfl | ⟨1, _⟩ => rfl)

theorem ridx_v20 (e : Fin 8192) (k : Fin 1024) (n : Fin 8192) : idx_main_v19 (ridx_main_v20 (ix2 e k) n) = ix2 k n :=
  funext fun a => Fin.ext (by match a with | ⟨0, _⟩ => rfl | ⟨1, _⟩ => rfl)

theorem bidx_v22 (e : Fin 8192) (k : Fin 1024) : idx_main_v21 (idx_main_v22 (ix2 e k)) = ix1 k :=
  funext fun a => Fin.ext (by match a with | ⟨0, _⟩ => rfl)

theorem lidx_v31 (e : Fin 8192) (k : Fin 1024) (n : Fin 8192) : lidx_main_v31 (ix2 e k) n = ix2 e n :=
  funext fun a => Fin.ext (by match a with | ⟨0, _⟩ => rfl | ⟨1, _⟩ => rfl)

theorem ridx_v31 (e : Fin 8192) (k : Fin 1024) (n : Fin 8192) : idx_main_v30 (ridx_main_v31 (ix2 e k) n) = ix2 k n :=
  funext fun a => Fin.ext (by match a with | ⟨0, _⟩ => rfl | ⟨1, _⟩ => rfl)

theorem bidx_v33 (e : Fin 8192) (k : Fin 1024) : idx_main_v32 (idx_main_v33 (ix2 e k)) = ix1 k :=
  funext fun a => Fin.ext (by match a with | ⟨0, _⟩ => rfl)

theorem lidx_v52 (e n : Fin 8192) (k : Fin 1024) : lidx_main_v52 (ix2 e n) k = ix2 e k :=
  funext fun a => Fin.ext (by match a with | ⟨0, _⟩ => rfl | ⟨1, _⟩ => rfl)

theorem ridx_v52 (e n : Fin 8192) (k : Fin 1024) : idx_main_v51 (ridx_main_v52 (ix2 e n) k) = ix2 n k :=
  funext fun a => Fin.ext (by match a with | ⟨0, _⟩ => rfl | ⟨1, _⟩ => rfl)

theorem bidx_v54 (e n : Fin 8192) : idx_main_v53 (idx_main_v54 (ix2 e n)) = ix1 n :=
  funext fun a => Fin.ext (by match a with | ⟨0, _⟩ => rfl)

theorem lidx_v63 (e n : Fin 8192) (k : Fin 1024) : lidx_main_v63 (ix2 e n) k = ix2 e k :=
  funext fun a => Fin.ext (by match a with | ⟨0, _⟩ => rfl | ⟨1, _⟩ => rfl)

theorem ridx_v63 (e n : Fin 8192) (k : Fin 1024) : idx_main_v62 (ridx_main_v63 (ix2 e n) k) = ix2 n k :=
  funext fun a => Fin.ext (by match a with | ⟨0, _⟩ => rfl | ⟨1, _⟩ => rfl)

theorem bidx_v65 (e n : Fin 8192) : idx_main_v64 (idx_main_v65 (ix2 e n)) = ix1 n :=
  funext fun a => Fin.ext (by match a with | ⟨0, _⟩ => rfl)

theorem row_call0 (e : Fin 8192) (k : Fin 1024) : idx_main_call0_v1 (ix1 e) k = ix2 e k :=
  funext fun a => Fin.ext (by match a with | ⟨0, _⟩ => rfl | ⟨1, _⟩ => rfl)

theorem row_call3 (e n : Fin 8192) : idx_main_call3_v1 (ix1 e) n = ix2 e n :=
  funext fun a => Fin.ext (by match a with | ⟨0, _⟩ => rfl | ⟨1, _⟩ => rfl)

theorem row_call7 (e n : Fin 8192) : idx_main_call7_v1 (ix1 e) n = ix2 e n :=
  funext fun a => Fin.ext (by match a with | ⟨0, _⟩ => rfl | ⟨1, _⟩ => rfl)

theorem row_call8 (e n : Fin 8192) : idx_main_call8_v1 (ix1 e) n = ix2 e n :=
  funext fun a => Fin.ext (by match a with | ⟨0, _⟩ => rfl | ⟨1, _⟩ => rfl)

/-! ### The two layers on the gathered rows -/

/-- The encoder on the first gathered matrix at (e, k). -/
theorem enc_first (e : Fin 8192) (k : Fin 1024) :
    val_main_v29 (F := Ideal) x0 x1 x2 x5 (ix2 e k)
      = enc (fun k n => x1 (ix2 k n)) (fun k => x2 (ix1 k)) (fun n => val_main_v10 (F := Ideal) x0 x5 (ix2 e n)) k := by
  rw [val_main_v29_apply, val_main_v28_apply, val_main_cst_3_apply, val_main_v27_apply, val_main_v26_apply, val_main_cst_apply,
    val_main_v25_apply, val_main_v24_apply, sigmoid_expanded, val_main_v23_apply, val_main_v20_apply, val_main_v22_apply,
    val_main_v21_apply, bidx_v22]
  simp only [val_main_v19_apply, lidx_v20, ridx_v20, Ideal.addf_def]
  rfl

/-- The encoder on the second gathered matrix at (e, k). -/
theorem enc_second (e : Fin 8192) (k : Fin 1024) :
    val_main_v40 (F := Ideal) x0 x1 x2 x5 (ix2 e k)
      = enc (fun k n => x1 (ix2 k n)) (fun k => x2 (ix1 k)) (fun n => val_main_v17 (F := Ideal) x0 x5 (ix2 e n)) k := by
  rw [val_main_v40_apply, val_main_v39_apply, val_main_cst_5_apply, val_main_v38_apply, val_main_v37_apply, val_main_cst_4_apply,
    val_main_v36_apply, val_main_v35_apply, sigmoid_expanded, val_main_v34_apply, val_main_v31_apply, val_main_v33_apply,
    val_main_v32_apply, bidx_v33]
  simp only [val_main_v30_apply, lidx_v31, ridx_v31, Ideal.addf_def]
  rfl

/-- The decoder on the first encoded matrix at (e, n). -/
theorem rec_first (e n : Fin 8192) :
    val_main_v61 (F := Ideal) x0 x1 x2 x3 x4 x5 (ix2 e n)
      = rec (fun k n => x1 (ix2 k n)) (fun k => x2 (ix1 k)) (fun n k => x3 (ix2 n k)) (fun n => x4 (ix1 n))
          (fun n => val_main_v10 (F := Ideal) x0 x5 (ix2 e n)) n := by
  rw [val_main_v61_apply, val_main_v60_apply, val_main_cst_11_apply, val_main_v59_apply, val_main_v58_apply, val_main_cst_10_apply,
    val_main_v57_apply, val_main_v56_apply, sigmoid_expanded, val_main_v55_apply, val_main_v52_apply, val_main_v54_apply,
    val_main_v53_apply, bidx_v54]
  simp only [val_main_v51_apply, lidx_v52, ridx_v52, enc_first, Ideal.addf_def]
  rfl

/-- The decoder on the second encoded matrix at (e, n). -/
theorem rec_second (e n : Fin 8192) :
    val_main_v72 (F := Ideal) x0 x1 x2 x3 x4 x5 (ix2 e n)
      = rec (fun k n => x1 (ix2 k n)) (fun k => x2 (ix1 k)) (fun n k => x3 (ix2 n k)) (fun n => x4 (ix1 n))
          (fun n => val_main_v17 (F := Ideal) x0 x5 (ix2 e n)) n := by
  rw [val_main_v72_apply, val_main_v71_apply, val_main_cst_13_apply, val_main_v70_apply, val_main_v69_apply, val_main_cst_12_apply,
    val_main_v68_apply, val_main_v67_apply, sigmoid_expanded, val_main_v66_apply, val_main_v63_apply, val_main_v65_apply,
    val_main_v64_apply, bidx_v65]
  simp only [val_main_v62_apply, lidx_v63, ridx_v63, enc_second, Ideal.addf_def]
  rfl

/-! ### The four norms of an edge -/

/-- The first-layer distance of edge e. -/
theorem norm_enc (e : Fin 8192) :
    val_main_v42 (F := Ideal) x0 x1 x2 x5 (ix1 e)
      = dist (enc (fun k n => x1 (ix2 k n)) (fun k => x2 (ix1 k)) (fun n => val_main_v10 (F := Ideal) x0 x5 (ix2 e n)))
          (enc (fun k n => x1 (ix2 k n)) (fun k => x2 (ix1 k)) (fun n => val_main_v17 (F := Ideal) x0 x5 (ix2 e n))) := by
  rw [val_main_v42_apply, val_main_call0_v1_apply, val_main_call0_cst_apply, ← sqrt_zero_add_sum_sq]
  simp only [row_call0, val_main_call0_v0_apply, val_main_v41_apply, enc_first, enc_second]

/-- The second-layer distance of edge e. -/
theorem norm_rec (e : Fin 8192) :
    val_main_v74 (F := Ideal) x0 x1 x2 x3 x4 x5 (ix1 e)
      = dist (rec (fun k n => x1 (ix2 k n)) (fun k => x2 (ix1 k)) (fun n k => x3 (ix2 n k)) (fun n => x4 (ix1 n))
            (fun n => val_main_v10 (F := Ideal) x0 x5 (ix2 e n)))
          (rec (fun k n => x1 (ix2 k n)) (fun k => x2 (ix1 k)) (fun n k => x3 (ix2 n k)) (fun n => x4 (ix1 n))
            (fun n => val_main_v17 (F := Ideal) x0 x5 (ix2 e n))) := by
  rw [val_main_v74_apply, val_main_call3_v1_apply, val_main_call3_cst_apply, ← sqrt_zero_add_sum_sq]
  simp only [row_call3, val_main_call3_v0_apply, val_main_v73_apply, rec_first, rec_second]

/-- The reconstruction distance of the first row of edge e. -/
theorem norm_first (e : Fin 8192) :
    val_main_v88 (F := Ideal) x0 x1 x2 x3 x4 x5 (ix1 e)
      = dist (fun n => val_main_v10 (F := Ideal) x0 x5 (ix2 e n))
          (rec (fun k n => x1 (ix2 k n)) (fun k => x2 (ix1 k)) (fun n k => x3 (ix2 n k)) (fun n => x4 (ix1 n))
            (fun n => val_main_v10 (F := Ideal) x0 x5 (ix2 e n))) := by
  rw [val_main_v88_apply, val_main_call7_v1_apply, val_main_call7_cst_apply, ← sqrt_zero_add_sum_sq]
  simp only [row_call7, val_main_call7_v0_apply, val_main_v87_apply, rec_first]

/-- The reconstruction distance of the second row of edge e. -/
theorem norm_second (e : Fin 8192) :
    val_main_v90 (F := Ideal) x0 x1 x2 x3 x4 x5 (ix1 e)
      = dist (fun n => val_main_v17 (F := Ideal) x0 x5 (ix2 e n))
          (rec (fun k n => x1 (ix2 k n)) (fun k => x2 (ix1 k)) (fun n k => x3 (ix2 n k)) (fun n => x4 (ix1 n))
            (fun n => val_main_v17 (F := Ideal) x0 x5 (ix2 e n))) := by
  rw [val_main_v90_apply, val_main_call8_v1_apply, val_main_call8_cst_apply, ← sqrt_zero_add_sum_sq]
  simp only [row_call8, val_main_call8_v0_apply, val_main_v89_apply, rec_second]

/-- The weight of edge e's label. -/
theorem weight_label (e : Fin 8192) :
    val_main_v86 (F := Ideal) x6 (ix1 e) = weight (val_main_v18 (F := Ideal) x6 (ix1 e)) := by
  rw [val_main_v86_apply, val_main_v85_apply, val_main_v84_apply, val_main_cst_17_apply, val_main_call6_v0_apply,
    val_main_cst_18_apply, val_main_call6_v1_apply, val_main_cst_19_apply]
  rfl

/-! ### The three terms of an edge and their sums -/

theorem term1_edge (e : Fin 8192) :
    val_main_v43 (F := Ideal) x0 x1 x2 x5 x6 (ix1 e)
      = term1 (fun k n => x1 (ix2 k n)) (fun k => x2 (ix1 k)) (fun n => val_main_v10 (F := Ideal) x0 x5 (ix2 e n))
          (fun n => val_main_v17 (F := Ideal) x0 x5 (ix2 e n)) (val_main_v18 (F := Ideal) x6 (ix1 e)) := by
  rw [val_main_v43_apply, norm_enc]
  rfl

theorem term2_edge (e : Fin 8192) :
    val_main_v75 (F := Ideal) x0 x1 x2 x3 x4 x5 x6 (ix1 e)
      = term2 (fun k n => x1 (ix2 k n)) (fun k => x2 (ix1 k)) (fun n k => x3 (ix2 n k)) (fun n => x4 (ix1 n))
          (fun n => val_main_v10 (F := Ideal) x0 x5 (ix2 e n)) (fun n => val_main_v17 (F := Ideal) x0 x5 (ix2 e n))
          (val_main_v18 (F := Ideal) x6 (ix1 e)) := by
  rw [val_main_v75_apply, norm_rec]
  rfl

theorem term3_edge (e : Fin 8192) :
    val_main_v92 (F := Ideal) x0 x1 x2 x3 x4 x5 x6 (ix1 e)
      = term3 (fun k n => x1 (ix2 k n)) (fun k => x2 (ix1 k)) (fun n k => x3 (ix2 n k)) (fun n => x4 (ix1 n))
          (fun n => val_main_v10 (F := Ideal) x0 x5 (ix2 e n)) (fun n => val_main_v17 (F := Ideal) x0 x5 (ix2 e n))
          (val_main_v18 (F := Ideal) x6 (ix1 e)) := by
  rw [val_main_v92_apply, val_main_v91_apply, norm_first, norm_second, weight_label]
  rfl

/-- The first sum over the edges. -/
theorem sum_term1 (i : S_.Idx) :
    val_main_v45 (F := Ideal) x0 x1 x2 x5 x6 i
      = ∑ e : Fin 8192, term1 (fun k n => x1 (ix2 k n)) (fun k => x2 (ix1 k)) (fun n => val_main_v10 (F := Ideal) x0 x5 (ix2 e n))
          (fun n => val_main_v17 (F := Ideal) x0 x5 (ix2 e n)) (val_main_v18 (F := Ideal) x6 (ix1 e)) := by
  rw [val_main_v45_apply, val_main_cst_7_apply, val_main_v44_apply, val_main_cst_6_apply, sum_edge_indices]
  simp only [term1_edge, Ideal.addf_def, Ideal.ofBits_def, Ideal.ofBits_zero_f32, zero_add]

/-- The second sum over the edges. -/
theorem sum_term2 (i : S_.Idx) :
    val_main_v76 (F := Ideal) x0 x1 x2 x3 x4 x5 x6 i
      = ∑ e : Fin 8192, term2 (fun k n => x1 (ix2 k n)) (fun k => x2 (ix1 k)) (fun n k => x3 (ix2 n k)) (fun n => x4 (ix1 n))
          (fun n => val_main_v10 (F := Ideal) x0 x5 (ix2 e n)) (fun n => val_main_v17 (F := Ideal) x0 x5 (ix2 e n))
          (val_main_v18 (F := Ideal) x6 (ix1 e)) := by
  rw [val_main_v76_apply, val_main_cst_14_apply, sum_edge_indices]
  simp only [term2_edge, Ideal.ofBits_def, Ideal.ofBits_zero_f32, zero_add]

/-- The third sum over the edges. -/
theorem sum_term3 (i : S_.Idx) :
    val_main_v93 (F := Ideal) x0 x1 x2 x3 x4 x5 x6 i
      = ∑ e : Fin 8192, term3 (fun k n => x1 (ix2 k n)) (fun k => x2 (ix1 k)) (fun n k => x3 (ix2 n k)) (fun n => x4 (ix1 n))
          (fun n => val_main_v10 (F := Ideal) x0 x5 (ix2 e n)) (fun n => val_main_v17 (F := Ideal) x0 x5 (ix2 e n))
          (val_main_v18 (F := Ideal) x6 (ix1 e)) := by
  rw [val_main_v93_apply, val_main_cst_20_apply, sum_edge_indices]
  simp only [term3_edge, Ideal.ofBits_def, Ideal.ofBits_zero_f32, zero_add]

end

/-- The reference's result is the three sums over the edges plus the weight-norm term. -/
theorem ref_value (x0 : (⟨S8192x8192, .f32⟩ : BufTy).Contents (Elt Ideal)) (x1 : (⟨S1024x8192, .f32⟩ : BufTy).Contents (Elt Ideal))
    (x2 : (⟨S1024, .f32⟩ : BufTy).Contents (Elt Ideal)) (x3 : (⟨S8192x1024, .f32⟩ : BufTy).Contents (Elt Ideal))
    (x4 : (⟨S8192, .f32⟩ : BufTy).Contents (Elt Ideal)) (x5 : (⟨S8192x2, .i32⟩ : BufTy).Contents (Elt Ideal))
    (x6 : (⟨S8192, .i32⟩ : BufTy).Contents (Elt Ideal)) :
    val_main_v95 (F := Ideal) x0 x1 x2 x3 x4 x5 x6
      = fun _ => edgeLoss (fun k n => x1 (ix2 k n)) (fun k => x2 (ix1 k)) (fun n k => x3 (ix2 n k)) (fun n => x4 (ix1 n))
          (fun e n => val_main_v10 (F := Ideal) x0 x5 (ix2 e n)) (fun e n => val_main_v17 (F := Ideal) x0 x5 (ix2 e n))
          (fun e => val_main_v18 (F := Ideal) x6 (ix1 e))
        + val_main_v83 (F := Ideal) x1 x2 x3 x4 ix0 := by
  funext i
  obtain rfl := eq_ix0 i
  rw [val_main_v95_apply, val_main_v94_apply, val_main_v77_apply, sum_term1, sum_term2, sum_term3]
  rfl

end Cert.ReferenceIdeal.Loss

end
-- ==== Proof.BodyForm.lean ====
/-
  One grid point of the kernel, as a regular term.

  The body stacks the tile's 128 xi rows over its 128 xj rows (256 rows), applies the encoder (one matmul against W1,
  bias, logistic), and then walks the decoder's 8192 output units in 8 chunks of 1024: for chunk c it multiplies
  the 256 hidden rows with rows 1024c .. 1024c+1023 of W2, adds that chunk of b2 and applies the logistic; from the
  chunk's upper half (xi rows) and lower half (xj rows) it adds, row by row, three sums of 1024 squares to three
  running [128,1] accumulators that start at zero: (dec xi − dec xj)², (xi − dec xi)², (xj − dec xj)².
  After the last chunk it takes square roots, weights them with the labels, sums each of the three weighted columns
  to a scalar, adds the three scalars, and adds the result into entry (0,0,0) of the [1,8,128] output block
  (zero into every other entry).

  The printed body cuts this computation into pieces at positions that fall differently in every chunk; here the
  same operations are written once per kind and applied eight times, and the run's result is shown to be this
  term (case B: over the block the point before left; case A: over the zero block the point itself stored first).
-/
import proofs.«403131_j63050119906009_2_alg».proof.Proof.Gen.KernelIdeal.Frame
import Idealize.ShloMosaic.Lib.Pipeline.Value

set_option maxRecDepth 16384

noncomputable section

namespace Cert.KernelIdeal.Tile

open Cert.KernelIdeal Cert.KernelIdeal.Gen Idealize.ShloMosaic Idealize.ShloMosaic.TcCoe Idealize.ShloMosaic.Tactic
open Idealize.SL Idealize.SL.Sem

variable {F : FTy → Type} [FloatOps F]

/-- The decoder on one chunk: 256 hidden rows against 1024 rows of W2, plus that chunk of the bias, through the logistic. -/
def decChunk (h : FVec F S256x1024 .bf16) (w : Vec F S1024x1024 .bf16) (b : Vec F S1x1024 .f32) : FVec F S256x1024 .f32 :=
  logistic (addf (matmul dot_S256x1024_S1024x1024_S256x1024_1_1_0_0_n_n none h (shapeCast S1024x1024 w shapeCasts_S1024x1024_S1024x1024) (constant S256x1024 .f32 0x00000000#32))
    (broadcastTo S256x1024 (shapeCast S1x1024 b shapeCasts_S1x1024_S1x1024) broadcasts_S1x1024_S256x1024))

/-- The xi half of the stacked rows. -/
def upper (s : FVec F S256x1024 .f32) : FVec F S128x1024 .f32 := extractStridedSlice S128x1024 ![0, 0] s slices_S256x1024_o0_0_S128x1024

/-- The xj half of the stacked rows. -/
def lower (s : FVec F S256x1024 .f32) : FVec F S128x1024 .f32 := extractStridedSlice S128x1024 ![128, 0] s slices_S256x1024_o128_0_S128x1024

/-- Row by row, the sum of the 1024 squares, as a column. -/
def rowSq (d : FVec F S128x1024 .f32) : FVec F S128x1 .f32 :=
  shapeCast S128x1 (multiReduction .add [1] S128 (mulf d d) 0x00000000#32 reduces_S128x1024_S128 (.inl rfl) rfl) shapeCasts_S128_S128x1

/-- A loaded bf16 chunk of feature rows, widened. -/
def widen (xc : Vec F S128x1024 .bf16) : FVec F S128x1024 .f32 := extf .f32 (shapeCast S128x1024 xc shapeCasts_S128x1024_S128x1024) bitsLt_bf16_f32

/-- One chunk's step of the three accumulators. -/
def stepD (acc : FVec F S128x1 .f32) (s : FVec F S256x1024 .f32) : FVec F S128x1 .f32 := addf acc (rowSq (subf (upper s) (lower s)))
def stepI (acc : FVec F S128x1 .f32) (s : FVec F S256x1024 .f32) (xc : Vec F S128x1024 .bf16) : FVec F S128x1 .f32 := addf acc (rowSq (subf (widen xc) (upper s)))
def stepJ (acc : FVec F S128x1 .f32) (s : FVec F S256x1024 .f32) (xc : Vec F S128x1024 .bf16) : FVec F S128x1 .f32 := addf acc (rowSq (subf (widen xc) (lower s)))

/-- A weighted column summed to a scalar. -/
def colSum (v : FVec F S128x1 .f32) : F .f32 :=
  extractAt ![0, 0, 0] (shapeCast S1x1x1 (multiReduction .add [1, 2] S1 (shapeCast S1x128x1 v shapeCasts_S128x1_S1x128x1) 0x00000000#32 reduces_S1x128x1_S1 (.inl rfl) rfl) shapeCasts_S1_S1x1x1) inpos_S1x1x1_p0_0_0

/-- The label's weight column: 10 where the label is at least 1, else 1. -/
def weightCol (lab : FVec F S128x1 .f32) : FVec F S128x1 .f32 :=
  select (cmpf .oge lab (broadcast S128x1 (Scalar.ofBits .f32 0x3F800000#32))) (broadcast S128x1 (Scalar.ofBits .f32 0x41200000#32)) (broadcast S128x1 (Scalar.ofBits .f32 0x3F800000#32))

/-- The mask of entry (0,0) of an [8,128] tile. -/
def cornerMask : IVec S8x128 1 :=
  andi (cmpi .eq (iota .tc S8x128 32 [0] iota_S8x128_d0_w32) (broadcast S8x128 0#32)) (cmpi .eq (iota .tc S8x128 32 [1] iota_S8x128_d1_w32) (broadcast S8x128 0#32))

/-- The point's last steps: from the first-layer scalar, the labels, the three finished accumulators and the block as loaded,
    the block to store. -/
def finish (lab : FVec F S128x1 .f32) (t1 : F .f32) (sqD sqI sqJ : FVec F S128x1 .f32) (prevL : Vec F S1x8x128 .f32) : FVec F S1x8x128 .f32 :=
  shapeCast S1x8x128
    (addf (shapeCast S8x128 prevL shapeCasts_S1x8x128_S8x128)
      (select cornerMask
        (broadcast S8x128 (Scalar.addf (Scalar.addf t1 (colSum (mulf (sqrt sqD) lab))) (colSum (mulf (weightCol lab) (addf (sqrt sqI) (sqrt sqJ))))))
        (broadcast S8x128 (Scalar.ofBits .f32 0x00000000#32))))
    shapeCasts_S8x128_S1x8x128

theorem wAt_inb (c : Fin 8) : ∀ a, (![1024 * c.val, 0] : Fin 2 → Nat) a + S1024x1024.size a ≤ S8192x1024.size a := by
  intro a; fin_cases a <;> simp <;> omega
theorem bAt_inb (c : Fin 8) : ∀ a, (![0, 1024 * c.val] : Fin 2 → Nat) a + S1x1024.size a ≤ S1x8192.size a := by
  intro a; fin_cases a <;> simp <;> omega
theorem xAt_inb (c : Fin 8) : ∀ a, (![0, 1024 * c.val] : Fin 2 → Nat) a + S128x1024.size a ≤ S128x8192.size a := by
  intro a; fin_cases a <;> simp <;> omega

section point

variable (x0 x1 : Vec F S128x8192 .bf16) (x2 : Vec F S128x1 .f32) (x3 : Vec F S1024x8192 .bf16) (x4 : Vec F S1x1024 .f32)
  (x5 : Vec F S8192x1024 .bf16) (x6 : Vec F S1x8192 .f32)

/-- The blocks as the body loads them whole. -/
def ldXi : Vec F S128x8192 .bf16 := View.ld x0 (Rect.unit ![0, 0] S128x8192.size inb_S128x8192_S128x8192_0_0)
def ldXj : Vec F S128x8192 .bf16 := View.ld x1 (Rect.unit ![0, 0] S128x8192.size inb_S128x8192_S128x8192_0_0)
def ldLab : Vec F S128x1 .f32 := View.ld x2 (Rect.unit ![0, 0] S128x1.size inb_S128x1_S128x1_0_0)
def ldW1 : Vec F S1024x8192 .bf16 := View.ld x3 (Rect.unit ![0, 0] S1024x8192.size inb_S1024x8192_S1024x8192_0_0)
def ldB1 : Vec F S1x1024 .f32 := View.ld x4 (Rect.unit ![0, 0] S1x1024.size inb_S1x1024_S1x1024_0_0)

/-- Chunk c of W2's rows, of b2, and of the two feature blocks' columns. -/
def wAt (c : Fin 8) : Vec F S1024x1024 .bf16 := View.ld x5 (Rect.unit ![1024 * c.val, 0] S1024x1024.size (wAt_inb c))
def bAt (c : Fin 8) : Vec F S1x1024 .f32 := View.ld x6 (Rect.unit ![0, 1024 * c.val] S1x1024.size (bAt_inb c))
def xiAt (c : Fin 8) : Vec F S128x1024 .bf16 := View.ld x0 (Rect.unit ![0, 1024 * c.val] S128x1024.size (xAt_inb c))
def xjAt (c : Fin 8) : Vec F S128x1024 .bf16 := View.ld x1 (Rect.unit ![0, 1024 * c.val] S128x1024.size (xAt_inb c))

/-- The 256 hidden rows (encoder output, narrowed for the second matmul). -/
def hidden : FVec F S256x1024 .bf16 := k0_pay5 (ldXi x0) (ldXj x1) (ldW1 x3) (ldB1 x4)

/-- The labels of the tile. -/
def labels : FVec F S128x1 .f32 := k0_pay3 (ldLab x2)

/-- The first-layer term summed over the tile. -/
def firstSum : F .f32 := k0_pay4 (ldXi x0) (ldXj x1) (ldW1 x3) (ldB1 x4) (ldLab x2)

/-- The decoder's activations on chunk c. -/
def decAt (c : Fin 8) : FVec F S256x1024 .f32 := decChunk (hidden x0 x1 x3 x4) (wAt x5 c) (bAt x6 c)

/-- The three accumulators after the eight chunks. -/
def accD : FVec F S128x1 .f32 :=
  stepD (stepD (stepD (stepD (stepD (stepD (stepD (stepD k0_pay6 (decAt x0 x1 x3 x4 x5 x6 0)) (decAt x0 x1 x3 x4 x5 x6 1)) (decAt x0 x1 x3 x4 x5 x6 2)) (decAt x0 x1 x3 x4 x5 x6 3))
    (decAt x0 x1 x3 x4 x5 x6 4)) (decAt x0 x1 x3 x4 x5 x6 5)) (decAt x0 x1 x3 x4 x5 x6 6)) (decAt x0 x1 x3 x4 x5 x6 7)
def accI : FVec F S128x1 .f32 :=
  stepI (stepI (stepI (stepI (stepI (stepI (stepI (stepI k0_pay6 (decAt x0 x1 x3 x4 x5 x6 0) (xiAt x0 0)) (decAt x0 x1 x3 x4 x5 x6 1) (xiAt x0 1)) (decAt x0 x1 x3 x4 x5 x6 2) (xiAt x0 2)) (decAt x0 x1 x3 x4 x5 x6 3) (xiAt x0 3))
    (decAt x0 x1 x3 x4 x5 x6 4) (xiAt x0 4)) (decAt x0 x1 x3 x4 x5 x6 5) (xiAt x0 5)) (decAt x0 x1 x3 x4 x5 x6 6) (xiAt x0 6)) (decAt x0 x1 x3 x4 x5 x6 7) (xiAt x0 7)
def accJ : FVec F S128x1 .f32 :=
  stepJ (stepJ (stepJ (stepJ (stepJ (stepJ (stepJ (stepJ k0_pay6 (decAt x0 x1 x3 x4 x5 x6 0) (xjAt x1 0)) (decAt x0 x1 x3 x4 x5 x6 1) (xjAt x1 1)) (decAt x0 x1 x3 x4 x5 x6 2) (xjAt x1 2)) (decAt x0 x1 x3 x4 x5 x6 3) (xjAt x1 3))
    (decAt x0 x1 x3 x4 x5 x6 4) (xjAt x1 4)) (decAt x0 x1 x3 x4 x5 x6 5) (xjAt x1 5)) (decAt x0 x1 x3 x4 x5 x6 6) (xjAt x1 6)) (decAt x0 x1 x3 x4 x5 x6 7) (xjAt x1 7)

/-- What the point stores, over the block as it loaded it. -/
def pointBlock (prevL : Vec F S1x8x128 .f32) : FVec F S1x8x128 .f32 :=
  finish (labels x2) (firstSum x0 x1 x2 x3 x4) (accD x0 x1 x3 x4 x5 x6) (accI x0 x1 x3 x4 x5 x6) (accJ x0 x1 x3 x4 x5 x6) prevL

end point

/-- A point that is not the first of its row of the grid leaves the block of the point before with this point's sum added. -/
theorem out_B (c : Dev nD) (i : grid0.Coords) (arg2 : Memref sig .tc .vmem S128x8192 .bf16) (harg2 : arg2.IsWhole) (arg3 : Memref sig .tc .vmem S128x8192 .bf16) (harg3 : arg3.IsWhole) (arg4 : Memref sig .tc .vmem S128x1 .f32) (harg4 : arg4.IsWhole) (arg5 : Memref sig .tc .vmem S1024x8192 .bf16) (harg5 : arg5.IsWhole) (arg6 : Memref sig .tc .vmem S1x1024 .f32) (harg6 : arg6.IsWhole) (arg7 : Memref sig .tc .vmem S8192x1024 .bf16) (harg7 : arg7.IsWhole) (arg8 : Memref sig .tc .vmem S1x8192 .f32) (harg8 : arg8.IsWhole) (arg9 : Memref sig .tc .vmem S1x8x128 .f32) (harg9 : arg9.IsWhole) (hc0 : ¬cond0_0 i) (x0 : Vec F S128x8192 .bf16) (x1 : Vec F S128x8192 .bf16) (x2 : Vec F S128x1 .f32) (x3 : Vec F S1024x8192 .bf16) (x4 : Vec F S1x1024 .f32) (x5 : Vec F S8192x1024 .bf16) (x6 : Vec F S1x8192 .f32) (xo7 : Vec F S1x8x128 .f32) :
    out0_B_7 c i arg2 harg2 arg3 harg3 arg4 harg4 arg5 harg5 arg6 harg6 arg7 harg7 arg8 harg8 arg9 harg9 hc0 x0 x1 x2 x3 x4 x5 x6 xo7
      = pointBlock x0 x1 x2 x3 x4 x5 x6 (View.ld xo7 (Rect.unit ![0, 0, 0] S1x8x128.size inb_S1x8x128_S1x8x128_0_0_0)) := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero (by funext a; fin_cases a <;> rfl)]
  simp only [View.readAt_eq_ld, harg2.read_unread, harg3.read_unread, harg4.read_unread, harg5.read_unread, harg6.read_unread, harg7.read_unread, harg8.read_unread, harg9.read_unread]
  rfl

/-- The first point of a row of the grid stores the zero block and then adds its sum to it. -/
theorem out_A (c : Dev nD) (i : grid0.Coords) (arg2 : Memref sig .tc .vmem S128x8192 .bf16) (harg2 : arg2.IsWhole) (arg3 : Memref sig .tc .vmem S128x8192 .bf16) (harg3 : arg3.IsWhole) (arg4 : Memref sig .tc .vmem S128x1 .f32) (harg4 : arg4.IsWhole) (arg5 : Memref sig .tc .vmem S1024x8192 .bf16) (harg5 : arg5.IsWhole) (arg6 : Memref sig .tc .vmem S1x1024 .f32) (harg6 : arg6.IsWhole) (arg7 : Memref sig .tc .vmem S8192x1024 .bf16) (harg7 : arg7.IsWhole) (arg8 : Memref sig .tc .vmem S1x8192 .f32) (harg8 : arg8.IsWhole) (arg9 : Memref sig .tc .vmem S1x8x128 .f32) (harg9 : arg9.IsWhole) (hc0 : cond0_0 i) (x0 : Vec F S128x8192 .bf16) (x1 : Vec F S128x8192 .bf16) (x2 : Vec F S128x1 .f32) (x3 : Vec F S1024x8192 .bf16) (x4 : Vec F S1x1024 .f32) (x5 : Vec F S8192x1024 .bf16) (x6 : Vec F S1x8192 .f32) :
    out0_A_7 c i arg2 harg2 arg3 harg3 arg4 harg4 arg5 harg5 arg6 harg6 arg7 harg7 arg8 harg8 arg9 harg9 hc0 x0 x1 x2 x3 x4 x5 x6 = pointBlock x0 x1 x2 x3 x4 x5 x6 k0_pay1 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  have hz : (![0, 0, 0] : Fin 3 → Nat) = fun _ => 0 := by funext a; fin_cases a <;> rfl
  rw [View.canon_cons_unit_zero hz]
  simp only [View.readAt_eq_ld, harg2.read_unread, harg3.read_unread, harg4.read_unread, harg5.read_unread, harg6.read_unread, harg7.read_unread, harg8.read_unread, harg9.read_unread]
  refine Eq.trans ?_ (congrArg (pointBlock x0 x1 x2 x3 x4 x5 x6)
    (View.readCov_unit_zero (Val := Elt F) (S := S1x8x128) (e := .f32) arg9.view hz inb_S1x8x128_S1x8x128_0_0_0 (k0_pay1 (F := F))))
  rfl

end Cert.KernelIdeal.Tile

end
-- ==== Proof.TileArgs.lean ====
/-
  The blocks one grid point holds, read as the arguments of the mathematics: W1 and W2 as matrices of extended
  reals, the two biases as rows, the tile's xi and xj feature rows, and its labels.
-/
import proofs.«403131_j63050119906009_2_alg».proof.Proof.BodyForm
import proofs.«403131_j63050119906009_2_alg».proof.Proof.EdgeTerms
import Idealize.ShloMosaic.Lib.ValueIdx
import Idealize.ShloMosaic.Lib.Pipeline.Value
import Idealize.ShloMosaic.PureOps.Ideal.Laws

set_option maxRecDepth 16384

noncomputable section

namespace Cert.KernelIdeal.Tile

open Cert.KernelIdeal Cert.KernelIdeal.Gen Cert.EdgeLoss Idealize.ShloMosaic Idealize.ShloMosaic.TcCoe Idealize.ShloMosaic.ValueIdx

variable (x0 x1 : Vec Ideal S128x8192 .bf16) (x2 : Vec Ideal S128x1 .f32) (x3 : Vec Ideal S1024x8192 .bf16) (x4 : Vec Ideal S1x1024 .f32)
  (x5 : Vec Ideal S8192x1024 .bf16) (x6 : Vec Ideal S1x8192 .f32)

/-- The encoder's weights: unit k, feature n. -/
def W1of : Fin 1024 → Fin 8192 → EReal := fun k n => x3 (ix2 k n)
/-- The encoder's bias. -/
def b1of : Fin 1024 → EReal := fun k => x4 (ix2 0 k)
/-- The decoder's weights: output unit n, hidden unit k. -/
def W2of : Fin 8192 → Fin 1024 → EReal := fun n k => x5 (ix2 n k)
/-- The decoder's bias. -/
def b2of : Fin 8192 → EReal := fun n => x6 (ix2 0 n)
/-- The 128 feature rows of a block. -/
def rowsOf (x : Vec Ideal S128x8192 .bf16) : Fin 128 → Fin 8192 → EReal := fun r n => x (ix2 r n)
/-- The 128 labels. -/
def labOf : Fin 128 → EReal := fun r => x2 (ix2 r 0)

/-- What the point adds to its accumulator entry. -/
def pointLoss : EReal :=
  tileLoss (W1of x3) (b1of x4) (W2of x5) (b2of x6) (rowsOf x0) (rowsOf x1) (labOf x2)

end Cert.KernelIdeal.Tile

end
-- ==== Proof.LossArgs.lean ====
/-
  The kernel program's argument arrays read as the arguments of the mathematics, and the names the kernel-side
  modules share: the grid point of row p and position u, the tile a point works on, and what a point adds.
  The gathered feature rows, the labels as floats and the weight-norm term are named by the same terms of the
  arguments as on the reference's side (both programs compute them by the same host operations).
-/
import proofs.«403131_j63050119906009_2_alg».proof.Proof.Gen.KernelIdeal.Frame
import proofs.«403131_j63050119906009_2_alg».proof.Proof.RefReadP
import proofs.«403131_j63050119906009_2_alg».proof.Proof.EdgeTerms
import proofs.«403131_j63050119906009_2_alg».proof.Proof.TileArgs
import Idealize.ShloMosaic.Lib.ValueIdx

set_option maxRecDepth 16384

noncomputable section

namespace Cert.KernelIdeal.Loss

open Cert.KernelIdeal Cert.KernelIdeal.Gen Cert.EdgeLoss Idealize.ShloMosaic Idealize.ShloMosaic.TcCoe Idealize.ShloMosaic.ValueIdx
open Idealize.SL Idealize.SL.Sem

variable (m : (ℓ : Loc nD τ sig) → Buf (Elt Ideal) ℓ) (c : Dev nD)

/-- The encoder's weights and bias, the decoder's weights and bias, from the argument arrays. -/
def W1m : Fin 1024 → Fin 8192 → EReal := fun k n => m ((c.tc : Thread nD τ).loc main_arg1) (ix2 k n)
def b1m : Fin 1024 → EReal := fun k => m ((c.tc : Thread nD τ).loc main_arg2) (ix1 k)
def W2m : Fin 8192 → Fin 1024 → EReal := fun n k => m ((c.tc : Thread nD τ).loc main_arg3) (ix2 n k)
def b2m : Fin 8192 → EReal := fun n => m ((c.tc : Thread nD τ).loc main_arg4) (ix1 n)

/-- The gathered feature rows of the edges' first and second endpoints. -/
def Xim : Fin 8192 → Fin 8192 → EReal := fun e n =>
  Cert.ReferenceIdeal.ReadP.val_main_v10 (F := Ideal) (m ((c.tc : Thread nD τ).loc main_arg0)) (m ((c.tc : Thread nD τ).loc main_arg5)) (ix2 e n)
def Xjm : Fin 8192 → Fin 8192 → EReal := fun e n =>
  Cert.ReferenceIdeal.ReadP.val_main_v17 (F := Ideal) (m ((c.tc : Thread nD τ).loc main_arg0)) (m ((c.tc : Thread nD τ).loc main_arg5)) (ix2 e n)

/-- The labels as floats. -/
def labm : Fin 8192 → EReal := fun e =>
  Cert.ReferenceIdeal.ReadP.val_main_v18 (F := Ideal) (m ((c.tc : Thread nD τ).loc main_arg6)) (ix1 e)

/-- The weight-norm term: (Σ row norms of W1 + ‖b1‖ + Σ row norms of W2 + ‖b2‖) · 8192. -/
def regm : EReal :=
  Cert.ReferenceIdeal.ReadP.val_main_v83 (F := Ideal) (m ((c.tc : Thread nD τ).loc main_arg1)) (m ((c.tc : Thread nD τ).loc main_arg2))
    (m ((c.tc : Thread nD τ).loc main_arg3)) (m ((c.tc : Thread nD τ).loc main_arg4)) ix0

/-- The grid has 64 points. -/
theorem N64 : cfg0.N = 64 := N_0

/-- The grid point of row p (0 or 1) at position u (0 … 31). -/
def pt (p : Fin 2) (u : Fin 32) : Fin cfg0.N := ⟨32 * p.val + u.val, by rw [N64]; omega⟩

/-- The tile a grid point works on: point t handles edges 128 t … 128 t + 127. -/
def tileOf (t : Fin cfg0.N) : Fin 64 := ⟨t.val, lt_of_lt_of_eq t.isLt N64⟩

/-- What grid point t adds to its accumulator entry, in terms of the blocks it holds. -/
def pointLossAt (t : Fin cfg0.N) : EReal :=
  Tile.pointLoss (iblk m c 0 t) (iblk m c 1 t) (iblk m c 2 t) (iblk m c 3 t) (iblk m c 4 t) (iblk m c 5 t) (iblk m c 6 t)

/-- The output array after the run. -/
def outArr : S2x8x128.Idx → EReal := (dats m 0 c).arrAt 7 cfg0.N

/-- The program's result buffer after the run, as the frame run states it. -/
def tailVal : S_.Idx → EReal :=
  Pipeline.afterTail₀ cfgs (dats m) 0 (V0 m) [hostOps1, hostOps1_1, hostOps1_2, hostOps1_3, hostOps1_4, hostOps1_5, hostOps1_6, hostOps1_7, hostOps1_8] c main_v38

end Cert.KernelIdeal.Loss

end
-- ==== Proof.Blocks.lean ====
/-
  The blocks a grid point holds are restrictions of the arrays the region finds, and those arrays are the host
  operations before the region applied to the arguments: the feature blocks of point t are rows 128 t … 128 t + 127
  of the two gathered matrices (their narrowing to bf16 is the identity on extended reals), its label block those
  entries of the labels (converted to float, reshaped to a column), and the four weight blocks are W1, b1 (as a
  row), W2, b2 (as a row) whole. So what point t adds is the tile's loss over the arguments.
-/
import proofs.«403131_j63050119906009_2_alg».proof.Proof.LossArgs
import Idealize.ShloMosaic.Lib.Pipeline.Value
import Idealize.ShloMosaic.Lib.StableHlo.Run
import Idealize.ShloMosaic.PureOps.Ideal.Laws

set_option maxRecDepth 16384

noncomputable section

namespace Cert.KernelIdeal.Loss

open Cert.KernelIdeal Cert.KernelIdeal.Gen Cert.EdgeLoss Idealize.ShloMosaic Idealize.ShloMosaic.TcCoe Idealize.ShloMosaic.ValueIdx
open Idealize.SL Idealize.SL.Sem

variable (m : (ℓ : Loc nD τ sig) → Buf (Elt Ideal) ℓ) (c : Dev nD)

open Idealize.ShloMosaic.StableHlo

/-! ## The arrays the region finds, as terms of the arguments -/

/-- The first window's array is the gather of the features' rows at the edges' first endpoints: its narrowing to
    bf16 is the identity on extended reals, and the start indices are the same operations of the edge list. -/
theorem first_gathered_eq : (V m c main_v18 : S8192x8192.Idx → EReal)
      = Cert.ReferenceIdeal.ReadP.val_main_v10 (F := Ideal) (m ((c.tc : Thread nD τ).loc main_arg0)) (m ((c.tc : Thread nD τ).loc main_arg5)) := by
  show (StableHlo.after hostOps0 (fun b => m (c, b)) (Proc.devRef .tc main_v18) : S8192x8192.Idx → EReal) = _
  after_results_simp
  funext i
  rw [truncf_apply]
  unfold Cert.ReferenceIdeal.ReadP.val_main_v10
  refine congrArg (fun idx => Host.gather Cert.ReferenceIdeal.gather_S8192x8192_S8192x1_S8192x8192_1_0_n_n_0_1_18192 (m ((c.tc : Thread nD τ).loc main_arg0)) idx i) ?_
  rfl

/-- The second window's array is the gather at the edges' second endpoints, likewise. -/
theorem second_gathered_eq : (V m c main_v19 : S8192x8192.Idx → EReal)
      = Cert.ReferenceIdeal.ReadP.val_main_v17 (F := Ideal) (m ((c.tc : Thread nD τ).loc main_arg0)) (m ((c.tc : Thread nD τ).loc main_arg5)) := by
  show (StableHlo.after hostOps0 (fun b => m (c, b)) (Proc.devRef .tc main_v19) : S8192x8192.Idx → EReal) = _
  after_results_simp
  funext i
  rw [truncf_apply]
  unfold Cert.ReferenceIdeal.ReadP.val_main_v17
  refine congrArg (fun idx => Host.gather Cert.ReferenceIdeal.gather_S8192x8192_S8192x1_S8192x8192_1_0_n_n_0_1_18192 (m ((c.tc : Thread nD τ).loc main_arg0)) idx i) ?_
  rfl

/-- The third window's array is the labels as floats, reshaped to a column: entry (e, 0) is label e. -/
theorem label_column_apply (e : Fin 8192) : (V m c main_v21 : S8192x1.Idx → EReal) (ix2 e (0 : Fin 1))
      = Cert.ReferenceIdeal.ReadP.val_main_v18 (F := Ideal) (m ((c.tc : Thread nD τ).loc main_arg6)) (ix1 e) := by
  show (StableHlo.after hostOps0 (fun b => m (c, b)) (Proc.devRef .tc main_v21) : S8192x1.Idx → EReal) (ix2 e (0 : Fin 1)) = _
  after_results_simp
  show shapeCast S8192x1 (sitofp (F := Ideal) .f32 (m (c, Proc.devRef .tc main_arg6))) shapeCasts_S8192_S8192x1 (ix2 e (0 : Fin 1)) = _
  rw [shapeCast_apply _ shapeCasts_S8192_S8192x1 (ix2 e (0 : Fin 1)) (ix1 e) (by rw [Shape.rowMajor_val_two, Shape.rowMajor_val_one]; show e.val = e.val * 1 + 0; omega)]
  rfl

/-- The encoder's weights narrowed to bf16 are the weights. -/
theorem enc_weights_eq : (V m c main_v22 : S1024x8192.Idx → EReal) = m ((c.tc : Thread nD τ).loc main_arg1) := by
  show (StableHlo.after hostOps0 (fun b => m (c, b)) (Proc.devRef .tc main_v22) : S1024x8192.Idx → EReal) = _
  after_results_simp
  rfl

/-- The decoder's weights narrowed to bf16 are the weights. -/
theorem dec_weights_eq : (V m c main_v23 : S8192x1024.Idx → EReal) = m ((c.tc : Thread nD τ).loc main_arg3) := by
  show (StableHlo.after hostOps0 (fun b => m (c, b)) (Proc.devRef .tc main_v23) : S8192x1024.Idx → EReal) = _
  after_results_simp
  rfl

/-- The encoder's bias reshaped to a row: entry (0, k) is entry k. -/
theorem enc_bias_row_apply (k : Fin 1024) : (V m c main_v24 : S1x1024.Idx → EReal) (ix2 (0 : Fin 1) k) = m ((c.tc : Thread nD τ).loc main_arg2) (ix1 k) := by
  show (StableHlo.after hostOps0 (fun b => m (c, b)) (Proc.devRef .tc main_v24) : S1x1024.Idx → EReal) (ix2 (0 : Fin 1) k) = _
  after_results_simp
  show shapeCast S1x1024 (m (c, Proc.devRef .tc main_arg2)) shapeCasts_S1024_S1x1024 (ix2 (0 : Fin 1) k) = _
  rw [shapeCast_apply _ shapeCasts_S1024_S1x1024 (ix2 (0 : Fin 1) k) (ix1 k) (by rw [Shape.rowMajor_val_two, Shape.rowMajor_val_one]; show k.val = 0 * 1024 + k.val; omega)]

/-- The decoder's bias reshaped to a row: entry (0, n) is entry n. -/
theorem dec_bias_row_apply (n : Fin 8192) : (V m c main_v25 : S1x8192.Idx → EReal) (ix2 (0 : Fin 1) n) = m ((c.tc : Thread nD τ).loc main_arg4) (ix1 n) := by
  show (StableHlo.after hostOps0 (fun b => m (c, b)) (Proc.devRef .tc main_v25) : S1x8192.Idx → EReal) (ix2 (0 : Fin 1) n) = _
  after_results_simp
  show shapeCast S1x8192 (m (c, Proc.devRef .tc main_arg4)) shapeCasts_S8192_S1x8192 (ix2 (0 : Fin 1) n) = _
  rw [shapeCast_apply _ shapeCasts_S8192_S1x8192 (ix2 (0 : Fin 1) n) (ix1 n) (by rw [Shape.rowMajor_val_two, Shape.rowMajor_val_one]; show n.val = 0 * 8192 + n.val; omega)]

/-! ## The blocks of a grid point, as entries of those arrays -/

/-- The windows' index maps over the grid: the two feature blocks and the label block of point t sit at row-block t,
    column-block 0; the four weight blocks at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row r of point t's first feature block is row 128 t + r of the first gathered matrix. -/
theorem first_rows_block_apply (t : Fin cfg0.N) (r : Fin 128) (n : Fin 8192) :
    (iblk m c 0 t : S128x8192.Idx → EReal) (ix2 r n) = (V m c main_v18 : S8192x8192.Idx → EReal) (ix2 (edgeOf (tileOf t) r) n) := by
  obtain ⟨e0, e1, -⟩ := block_indices t
  show V m c main_v18 (((cfg0.win 0).blk t).view.emb (ix2 r n)) = V m c main_v18 _
  refine congrArg _ (funext fun a => Fin.ext ?_)
  match a with
  | ⟨0, _⟩ => show win0_0.index t (0 : Fin 2) * 128 + 1 * r.val = 128 * t.val + r.val; rw [e0]; omega
  | ⟨1, _⟩ => show win0_0.index t (1 : Fin 2) * 8192 + 1 * n.val = n.val; rw [e1]; omega

/-- Row r of point t's second feature block is row 128 t + r of the second gathered matrix. -/
theorem second_rows_block_apply (t : Fin cfg0.N) (r : Fin 128) (n : Fin 8192) :
    (iblk m c 1 t : S128x8192.Idx → EReal) (ix2 r n) = (V m c main_v19 : S8192x8192.Idx → EReal) (ix2 (edgeOf (tileOf t) r) n) := by
  obtain ⟨-, -, e0, e1, -⟩ := block_indices t
  show V m c main_v19 (((cfg0.win 1).blk t).view.emb (ix2 r n)) = V m c main_v19 _
  refine congrArg _ (funext fun a => Fin.ext ?_)
  match a with
  | ⟨0, _⟩ => show win0_1.index t (0 : Fin 2) * 128 + 1 * r.val = 128 * t.val + r.val; rw [e0]; omega
  | ⟨1, _⟩ => show win0_1.index t (1 : Fin 2) * 8192 + 1 * n.val = n.val; rw [e1]; omega

/-- Entry r of point t's label block is entry 128 t + r of the label column. -/
theorem label_block_apply (t : Fin cfg0.N) (r : Fin 128) :
    (iblk m c 2 t : S128x1.Idx → EReal) (ix2 r (0 : Fin 1)) = (V m c main_v21 : S8192x1.Idx → EReal) (ix2 (edgeOf (tileOf t) r) (0 : Fin 1)) := by
  obtain ⟨-, -, -, -, e0, e1, -⟩ := block_indices t
  show V m c main_v21 (((cfg0.win 2).blk t).view.emb (ix2 r (0 : Fin 1))) = V m c main_v21 _
  refine congrArg _ (funext fun a => Fin.ext ?_)
  match a with
  | ⟨0, _⟩ => show win0_2.index t (0 : Fin 2) * 128 + 1 * r.val = 128 * t.val + r.val; rw [e0]; omega
  | ⟨1, _⟩ => show win0_2.index t (1 : Fin 2) * 1 + 1 * 0 = 0; rw [e1]

/-- Point t's block of the encoder's weights is the whole array. -/
theorem enc_weights_block_apply (t : Fin cfg0.N) (k : Fin 1024) (n : Fin 8192) :
    (iblk m c 3 t : S1024x8192.Idx → EReal) (ix2 k n) = (V m c main_v22 : S1024x8192.Idx → EReal) (ix2 k n) := by
  obtain ⟨-, -, -, -, -, -, e0, e1, -⟩ := block_indices t
  show V m c main_v22 (((cfg0.win 3).blk t).view.emb (ix2 k n)) = V m c main_v22 _
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 8192 + 1 * n.val = n.val; rw [e1]; omega

/-- Point t's block of the encoder's bias row is the whole row. -/
theorem enc_bias_block_apply (t : Fin cfg0.N) (k : Fin 1024) :
    (iblk m c 4 t : S1x1024.Idx → EReal) (ix2 (0 : Fin 1) k) = (V m c main_v24 : S1x1024.Idx → EReal) (ix2 (0 : Fin 1) k) := by
  obtain ⟨-, -, -, -, -, -, -, -, e0, e1, -⟩ := block_indices t
  show V m c main_v24 (((cfg0.win 4).blk t).view.emb (ix2 (0 : Fin 1) k)) = V m c main_v24 _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * k.val = k.val; rw [e1]; omega

/-- Point t's block of the decoder's weights is the whole array. -/
theorem dec_weights_block_apply (t : Fin cfg0.N) (n : Fin 8192) (k : Fin 1024) :
    (iblk m c 5 t : S8192x1024.Idx → EReal) (ix2 n k) = (V m c main_v23 : S8192x1024.Idx → EReal) (ix2 n k) := by
  obtain ⟨-, -, -, -, -, -, -, -, -, -, e0, e1, -⟩ := block_indices t
  show V m c main_v23 (((cfg0.win 5).blk t).view.emb (ix2 n k)) = V m c main_v23 _
  refine congrArg _ (funext fun a => Fin.ext ?_)
  match a with
  | ⟨0, _⟩ => show win0_5.index t (0 : Fin 2) * 8192 + 1 * n.val = n.val; rw [e0]; omega
  | ⟨1, _⟩ => show win0_5.index t (1 : Fin 2) * 1024 + 1 * k.val = k.val; rw [e1]; omega

/-- Point t's block of the decoder's bias row is the whole row. -/
theorem dec_bias_block_apply (t : Fin cfg0.N) (n : Fin 8192) :
    (iblk m c 6 t : S1x8192.Idx → EReal) (ix2 (0 : Fin 1) n) = (V m c main_v25 : S1x8192.Idx → EReal) (ix2 (0 : Fin 1) n) := by
  obtain ⟨-, -, -, -, -, -, -, -, -, -, -, -, e0, e1⟩ := block_indices t
  show V m c main_v25 (((cfg0.win 6).blk t).view.emb (ix2 (0 : Fin 1) n)) = V m c main_v25 _
  refine congrArg _ (funext fun a => Fin.ext ?_)
  match a with
  | ⟨0, _⟩ => show win0_6.index t (0 : Fin 2) * 1 + 1 * 0 = 0; rw [e0]
  | ⟨1, _⟩ => show win0_6.index t (1 : Fin 2) * 8192 + 1 * n.val = n.val; rw [e1]; omega

/-! ## What a point adds -/

/-- What grid point t adds, over the program's arguments: the loss of tile t. -/
theorem pointLossAt_eq (t : Fin cfg0.N) :
    pointLossAt m c t
      = tileLoss (W1m m c) (b1m m c) (W2m m c) (b2m m c)
          (fun r => Xim m c (edgeOf (tileOf t) r)) (fun r => Xjm m c (edgeOf (tileOf t) r)) (fun r => labm m c (edgeOf (tileOf t) r)) := by
  have hW1 : Tile.W1of (iblk m c 3 t) = W1m m c := by
    funext k n
    show (iblk m c 3 t : S1024x8192.Idx → EReal) (ix2 k n) = _
    rw [enc_weights_block_apply, enc_weights_eq]; rfl
  have hb1 : Tile.b1of (iblk m c 4 t) = b1m m c := by
    funext k
    show (iblk m c 4 t : S1x1024.Idx → EReal) (ix2 (0 : Fin 1) k) = _
    rw [enc_bias_block_apply, enc_bias_row_apply]; rfl
  have hW2 : Tile.W2of (iblk m c 5 t) = W2m m c := by
    funext n k
    show (iblk m c 5 t : S8192x1024.Idx → EReal) (ix2 n k) = _
    rw [dec_weights_block_apply, dec_weights_eq]; rfl
  have hb2 : Tile.b2of (iblk m c 6 t) = b2m m c := by
    funext n
    show (iblk m c 6 t : S1x8192.Idx → EReal) (ix2 (0 : Fin 1) n) = _
    rw [dec_bias_block_apply, dec_bias_row_apply]; rfl
  have hxi : Tile.rowsOf (iblk m c 0 t) = fun r => Xim m c (edgeOf (tileOf t) r) := by
    funext r n
    show (iblk m c 0 t : S128x8192.Idx → EReal) (ix2 r n) = _
    rw [first_rows_block_apply, first_gathered_eq]; rfl
  have hxj : Tile.rowsOf (iblk m c 1 t) = fun r => Xjm m c (edgeOf (tileOf t) r) := by
    funext r n
    show (iblk m c 1 t : S128x8192.Idx → EReal) (ix2 r n) = _
    rw [second_rows_block_apply, second_gathered_eq]; rfl
  have hl : Tile.labOf (iblk m c 2 t) = fun r => labm m c (edgeOf (tileOf t) r) := by
    funext r
    show (iblk m c 2 t : S128x1.Idx → EReal) (ix2 r (0 : Fin 1)) = _
    rw [label_block_apply, label_column_apply]; rfl
  unfold pointLossAt Tile.pointLoss
  rw [hW1, hb1, hW2, hb2, hxi, hxj, hl]

end Cert.KernelIdeal.Loss

end
-- ==== Proof.TileLayer1.lean ====
/-
  The encoder layer of one grid point read entry by entry: the 256 stacked rows (the tile's xi rows over its xj
  rows) times W1 transposed, plus b1, through the logistic, is enc of the corresponding feature row; and the
  first-layer scalar the point forms from them is the tile's sum of the first term.
-/
import proofs.«403131_j63050119906009_2_alg».proof.Proof.BodyForm
import proofs.«403131_j63050119906009_2_alg».proof.Proof.EdgeTerms
import proofs.«403131_j63050119906009_2_alg».proof.Proof.TileArgs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tile

open Cert.KernelIdeal Cert.KernelIdeal.Gen Cert.EdgeLoss Idealize.ShloMosaic Idealize.ShloMosaic.TcCoe Idealize.ShloMosaic.ValueIdx

/-- On the stacked rows' axis the left operand's index is the output row. -/
private theorem mmL0 (i : S256x1024.Idx) (q : dot_S256x8192_S1024x8192_S256x1024_1_1_0_0_n_n.contr.Idx) :
    (dot_S256x8192_S1024x8192_S256x1024_1_1_0_0_n_n.lhsIdx i q 0).val = (i 0).val := by
  unfold DotDims.lhsIdx
  rw [dif_neg (show ¬(0 : Fin S256x8192.rank) ∈ dot_S256x8192_S1024x8192_S256x1024_1_1_0_0_n_n.lhsBatch by decide), dif_pos (show (0 : Fin S256x8192.rank) ∈ dot_S256x8192_S1024x8192_S256x1024_1_1_0_0_n_n.lhsNonContracting by decide)]
  rfl
private theorem mmL1 (i : S256x1024.Idx) (q : dot_S256x8192_S1024x8192_S256x1024_1_1_0_0_n_n.contr.Idx) :
    (dot_S256x8192_S1024x8192_S256x1024_1_1_0_0_n_n.lhsIdx i q 1).val = (q ⟨0, by decide⟩).val :=
  dot_S256x8192_S1024x8192_S256x1024_1_1_0_0_n_n.lhsIdx_val_of_single rfl i q
private theorem mmR0 (i : S256x1024.Idx) (q : dot_S256x8192_S1024x8192_S256x1024_1_1_0_0_n_n.contr.Idx) :
    (dot_S256x8192_S1024x8192_S256x1024_1_1_0_0_n_n.rhsIdx i q 0).val = (i 1).val := by
  unfold DotDims.rhsIdx
  rw [dif_neg (show ¬(0 : Fin S1024x8192.rank) ∈ dot_S256x8192_S1024x8192_S256x1024_1_1_0_0_n_n.rhsBatch by decide), dif_pos (show (0 : Fin S1024x8192.rank) ∈ dot_S256x8192_S1024x8192_S256x1024_1_1_0_0_n_n.rhsNonContracting by decide)]
  rfl
private theorem mmR1 (i : S256x1024.Idx) (q : dot_S256x8192_S1024x8192_S256x1024_1_1_0_0_n_n.contr.Idx) :
    (dot_S256x8192_S1024x8192_S256x1024_1_1_0_0_n_n.rhsIdx i q 1).val = (q ⟨0, by decide⟩).val :=
  dot_S256x8192_S1024x8192_S256x1024_1_1_0_0_n_n.rhsIdx_val_of_single rfl i q

/-- The product of the stacked rows with the transposed weights, entry (a, k): the sum over the 8192 features. -/
private theorem mm_apply (A : FVec Ideal S256x8192 .bf16) (B : FVec Ideal S1024x8192 .bf16) (a : Fin 256) (k : Fin 1024) :
    matmul dot_S256x8192_S1024x8192_S256x1024_1_1_0_0_n_n none A B (constant (F := Ideal) S256x1024 .f32 0x00000000#32) (ix2 a k)
      = ∑ n : Fin 8192, A (ix2 a n) * B (ix2 k n) := by
  refine (Ideal.matmul_constant_zero_apply dot_S256x8192_S1024x8192_S256x1024_1_1_0_0_n_n none A B (ix2 a k)).trans ?_
  rw [← Equiv.sum_comp (ValueIdx.contrEquiv1 dot_S256x8192_S1024x8192_S256x1024_1_1_0_0_n_n 8192 rfl rfl).symm]
  refine Finset.sum_congr rfl fun n _ => ?_
  have hk := ValueIdx.contrEquiv1_symm_val dot_S256x8192_S1024x8192_S256x1024_1_1_0_0_n_n 8192 rfl rfl n
  have el : dot_S256x8192_S1024x8192_S256x1024_1_1_0_0_n_n.lhsIdx (ix2 a k) ((ValueIdx.contrEquiv1 dot_S256x8192_S1024x8192_S256x1024_1_1_0_0_n_n 8192 rfl rfl).symm n) = ix2 a n := funext fun b => Fin.ext (by
    match b with
    | ⟨0, _⟩ => exact mmL0 _ _
    | ⟨1, _⟩ => exact (mmL1 _ _).trans hk)
  have er : dot_S256x8192_S1024x8192_S256x1024_1_1_0_0_n_n.rhsIdx (ix2 a k) ((ValueIdx.contrEquiv1 dot_S256x8192_S1024x8192_S256x1024_1_1_0_0_n_n 8192 rfl rfl).symm n) = ix2 k n := funext fun b => Fin.ext (by
    match b with
    | ⟨0, _⟩ => exact mmR0 _ _
    | ⟨1, _⟩ => exact (mmR1 _ _).trans hk)
  rw [el, er]

/-- The encoder layer's entry on an xi row. -/
private theorem pay2_upper (v3 v5 : Vec Ideal S128x8192 .bf16) (v8 : Vec Ideal S1024x8192 .bf16) (v11 : Vec Ideal S1x1024 .f32) (r : Fin 128) (k : Fin 1024) :
    k0_pay2 v3 v5 v8 v11 (ix2 (⟨r.val, by omega⟩ : Fin 256) k) = Ideal.logistic ((∑ n : Fin 8192, v3 (ix2 r n) * v8 (ix2 k n)) + v11 (ix2 0 k)) := by
  unfold k0_pay2
  simp only [shapeCast_self]
  show Ideal.logistic (_ + _) = _
  refine congrArg Ideal.logistic ?_
  refine congrArg₂ (· + ·) ?_ ?_
  · refine (mm_apply _ _ _ _).trans ?_
    refine Finset.sum_congr rfl fun n _ => ?_
    refine congrArg (· * v8 (ix2 k n)) ?_
    refine (concatenate_pair_apply_left (t := S256x8192) (s₁ := S128x8192) (s₂ := S128x8192) (0 : Fin 2) (shapeCast S128x8192 v3 shapeCasts_S128x8192_S128x8192) (shapeCast S128x8192 v5 shapeCasts_S128x8192_S128x8192) concatenates_S128x8192_S128x8192_S256x8192_d0 (ix2 (⟨r.val, by omega⟩ : Fin 256) n) rfl (ix2 r n) ?_).trans ?_
    · intro b
      match b with
      | ⟨0, _⟩ => rfl
      | ⟨1, _⟩ => rfl
    · rw [shapeCast_self]
  · exact broadcastTo_apply v11 broadcasts_S1x1024_S256x1024 (ix2 _ k) (ix2 0 k) (fun a => match a with
      | ⟨0, _⟩ => by show (0 : Nat) = if (1 : Nat) = 1 then 0 else _; rw [if_pos rfl]
      | ⟨1, _⟩ => by show k.val = if (1024 : Nat) = 1 then 0 else k.val; rw [if_neg (by decide)])

/-- The encoder layer's entry on an xj row. -/
private theorem pay2_lower (v3 v5 : Vec Ideal S128x8192 .bf16) (v8 : Vec Ideal S1024x8192 .bf16) (v11 : Vec Ideal S1x1024 .f32) (r : Fin 128) (k : Fin 1024) :
    k0_pay2 v3 v5 v8 v11 (ix2 (⟨128 + r.val, by omega⟩ : Fin 256) k) = Ideal.logistic ((∑ n : Fin 8192, v5 (ix2 r n) * v8 (ix2 k n)) + v11 (ix2 0 k)) := by
  unfold k0_pay2
  simp only [shapeCast_self]
  show Ideal.logistic (_ + _) = _
  refine congrArg Ideal.logistic ?_
  refine congrArg₂ (· + ·) ?_ ?_
  · refine (mm_apply _ _ _ _).trans ?_
    refine Finset.sum_congr rfl fun n _ => ?_
    refine congrArg (· * v8 (ix2 k n)) ?_
    refine (concatenate_pair_apply_right (t := S256x8192) (s₁ := S128x8192) (s₂ := S128x8192) (0 : Fin 2) (shapeCast S128x8192 v3 shapeCasts_S128x8192_S128x8192) (shapeCast S128x8192 v5 shapeCasts_S128x8192_S128x8192) concatenates_S128x8192_S128x8192_S256x8192_d0 (ix2 (⟨128 + r.val, by omega⟩ : Fin 256) n) rfl rfl (ix2 r n) ?_ ?_).trans ?_
    · intro b hb
      match b, hb with
      | ⟨0, _⟩, hb => exact absurd rfl hb
      | ⟨1, _⟩, _ => rfl
    · show r.val + 128 = 128 + r.val
      omega
    · rw [shapeCast_self]
  · exact broadcastTo_apply v11 broadcasts_S1x1024_S256x1024 (ix2 _ k) (ix2 0 k) (fun a => match a with
      | ⟨0, _⟩ => by show (0 : Nat) = if (1 : Nat) = 1 then 0 else _; rw [if_pos rfl]
      | ⟨1, _⟩ => by show k.val = if (1024 : Nat) = 1 then 0 else k.val; rw [if_neg (by decide)])

/-- The xi half at (r, k) is the stacked block's row r. -/
private theorem upper_apply (s : FVec Ideal S256x1024 .f32) (r : Fin 128) (k : Fin 1024) :
    upper s (ix2 r k) = s (ix2 (⟨r.val, by omega⟩ : Fin 256) k) := by
  unfold upper
  exact extractStridedSlice_apply ![0, 0] s slices_S256x1024_o0_0_S128x1024 (ix2 r k) (ix2 (⟨r.val, by omega⟩ : Fin 256) k) (fun a => match a with
    | ⟨0, _⟩ => by show r.val = 0 + r.val; omega
    | ⟨1, _⟩ => by show k.val = 0 + k.val; omega)

/-- The xj half at (r, k) is the stacked block's row 128 + r. -/
private theorem lower_apply (s : FVec Ideal S256x1024 .f32) (r : Fin 128) (k : Fin 1024) :
    lower s (ix2 r k) = s (ix2 (⟨128 + r.val, by omega⟩ : Fin 256) k) := by
  unfold lower
  exact extractStridedSlice_apply ![128, 0] s slices_S256x1024_o128_0_S128x1024 (ix2 r k) (ix2 (⟨128 + r.val, by omega⟩ : Fin 256) k) (fun a => match a with
    | ⟨0, _⟩ => by show 128 + r.val = 128 + r.val; rfl
    | ⟨1, _⟩ => by show k.val = 0 + k.val; omega)

/-- The column of row sums of squares, at row r. -/
private theorem rowSq_apply (d : FVec Ideal S128x1024 .f32) (r : Fin 128) :
    rowSq d (ix2 r (0 : Fin 1)) = ∑ k : Fin 1024, d (ix2 r k) * d (ix2 r k) := by
  unfold rowSq
  refine (shapeCast_apply _ shapeCasts_S128_S128x1 (ix2 r (0 : Fin 1)) (ix1 r) ?_).trans ?_
  · rw [Shape.rowMajor_val_two, Shape.rowMajor_val_one]
    show r.val = r.val * 1 + 0
    omega
  · refine (Ideal.multiReduction_add_single (mulf d d) _ reduces_S128x1024_S128 (.inl rfl) rfl (ix1 r)).trans ?_
    refine Finset.sum_congr rfl fun k _ => ?_
    have e : reduces_S128x1024_S128.lift (ix1 r) k = ix2 r k := funext fun a => Fin.ext (match a with
      | ⟨0, _⟩ => rfl
      | ⟨1, _⟩ => rfl)
    rw [e]
    rfl

/-- The indices of a [1,128,1] block are its 128 rows. -/
private def rowEquiv : S1x128x1.Idx ≃ Fin 128 where
  toFun i := i 1
  invFun r := ix3 (0 : Fin 1) r (0 : Fin 1)
  left_inv i := by
    funext a
    match a with
    | ⟨0, _⟩ =>
      have h : (i 0).val < 1 := (i 0).isLt
      exact Fin.ext (by show 0 = (i 0).val; omega)
    | ⟨1, _⟩ => rfl
    | ⟨2, _⟩ =>
      have h : (i 2).val < 1 := (i 2).isLt
      exact Fin.ext (by show 0 = (i 2).val; omega)
  right_inv _ := rfl

/-- A column summed to a scalar is the sum of its 128 entries. -/
private theorem colSum_eq (v : FVec Ideal S128x1 .f32) : colSum v = ∑ r : Fin 128, v (ix2 r (0 : Fin 1)) := by
  unfold colSum extractAt
  refine (shapeCast_apply _ shapeCasts_S1_S1x1x1 _ (ix1 (0 : Fin 1)) ?_).trans ?_
  · rw [Shape.rowMajor_val_three, Shape.rowMajor_val_one]
    rfl
  · refine (Ideal.multiReduction_add_total _ _ reduces_S1x128x1_S1 (fun b => ?_) (.inl rfl) rfl _).trans ?_
    · match b with
      | ⟨0, _⟩ => rfl
    · refine (Equiv.sum_comp rowEquiv.symm _).symm.trans ?_
      refine Finset.sum_congr rfl fun r _ => ?_
      exact shapeCast_ab_1ab_apply v shapeCasts_S128x1_S1x128x1 0 r 0

variable (x0 x1 : Vec Ideal S128x8192 .bf16) (x2 : Vec Ideal S128x1 .f32) (x3 : Vec Ideal S1024x8192 .bf16) (x4 : Vec Ideal S1x1024 .f32)
  (x5 : Vec Ideal S8192x1024 .bf16) (x6 : Vec Ideal S1x8192 .f32)

/-- The two zero offsets, as the constant function. -/
private theorem zero2 : (![0, 0] : Fin 2 → Nat) = fun _ => 0 := by
  funext a; fin_cases a <;> rfl

/-- The whole-block loads read the blocks. -/
private theorem ldXi_eq : ldXi x0 = x0 := View.ld_unit_zero zero2 _ x0
private theorem ldXj_eq : ldXj x1 = x1 := View.ld_unit_zero zero2 _ x1
private theorem ldLab_eq : ldLab x2 = x2 := View.ld_unit_zero zero2 _ x2
private theorem ldW1_eq : ldW1 x3 = x3 := View.ld_unit_zero zero2 _ x3
private theorem ldB1_eq : ldB1 x4 = x4 := View.ld_unit_zero zero2 _ x4

/-- Hidden row r of the upper half is the encoder on xi row r. -/
theorem hidden_upper (r : Fin 128) (k : Fin 1024) :
    hidden x0 x1 x3 x4 (ix2 (⟨r.val, by omega⟩ : Fin 256) k) = enc (W1of x3) (b1of x4) (rowsOf x0 r) k := by
  unfold hidden k0_pay5
  show k0_pay2 (ldXi x0) (ldXj x1) (ldW1 x3) (ldB1 x4) (ix2 _ k) = _
  rw [ldXi_eq, ldXj_eq, ldW1_eq, ldB1_eq]
  exact pay2_upper x0 x1 x3 x4 r k

/-- Hidden row 128 + r of the lower half is the encoder on xj row r. -/
theorem hidden_lower (r : Fin 128) (k : Fin 1024) :
    hidden x0 x1 x3 x4 (ix2 (⟨128 + r.val, by omega⟩ : Fin 256) k) = enc (W1of x3) (b1of x4) (rowsOf x1 r) k := by
  unfold hidden k0_pay5
  show k0_pay2 (ldXi x0) (ldXj x1) (ldW1 x3) (ldB1 x4) (ix2 _ k) = _
  rw [ldXi_eq, ldXj_eq, ldW1_eq, ldB1_eq]
  exact pay2_lower x0 x1 x3 x4 r k

/-- The labels the point uses are the label block's entries. -/
theorem labels_apply (r : Fin 128) : labels x2 (ix2 r 0) = labOf x2 r := by
  unfold labels k0_pay3
  rw [shapeCast_self, ldLab_eq]
  rfl

/-- The first-layer scalar is the tile's sum of the first term. -/
theorem firstSum_eq :
    firstSum x0 x1 x2 x3 x4 = ∑ r : Fin 128, term1 (W1of x3) (b1of x4) (rowsOf x0 r) (rowsOf x1 r) (labOf x2 r) := by
  have e : firstSum x0 x1 x2 x3 x4
      = colSum (mulf (sqrt (rowSq (subf (upper (k0_pay2 x0 x1 x3 x4)) (lower (k0_pay2 x0 x1 x3 x4))))) (labels x2)) := by
    unfold firstSum labels
    rw [ldXi_eq, ldXj_eq, ldW1_eq, ldB1_eq]
    rfl
  rw [e, colSum_eq]
  refine Finset.sum_congr rfl fun r _ => ?_
  show Ideal.sqrt (rowSq (F := Ideal) _ (ix2 r (0 : Fin 1))) * labels x2 (ix2 r 0) = _
  rw [rowSq_apply, labels_apply]
  unfold term1 Cert.EdgeLoss.dist
  refine congrArg (fun t => Ideal.sqrt t * labOf x2 r) ?_
  refine Finset.sum_congr rfl fun k _ => ?_
  have h : subf (upper (k0_pay2 x0 x1 x3 x4)) (lower (k0_pay2 x0 x1 x3 x4)) (ix2 r k)
      = enc (W1of x3) (b1of x4) (rowsOf x0 r) k - enc (W1of x3) (b1of x4) (rowsOf x1 r) k := by
    refine (subf_apply _ _ _).trans ?_
    rw [upper_apply, lower_apply, pay2_upper, pay2_lower]
    rfl
  rw [h]

end Cert.KernelIdeal.Tile

end
-- ==== Proof.TileChunks.lean ====
/-
  The decoder layer of one grid point read entry by entry, chunk by chunk, and the three accumulators after the
  eight chunks: row r of each holds the full sum, over the 8192 output units, of the squared differences.
-/
import proofs.«403131_j63050119906009_2_alg».proof.Proof.BodyForm
import proofs.«403131_j63050119906009_2_alg».proof.Proof.EdgeTerms
import proofs.«403131_j63050119906009_2_alg».proof.Proof.TileArgs
import proofs.«403131_j63050119906009_2_alg».proof.Proof.TileLayer1
import Idealize.ShloMosaic.Lib.ValueIdx
import Idealize.ShloMosaic.Lib.Pipeline.Value
import Idealize.ShloMosaic.PureOps.Ideal.Laws

set_option maxRecDepth 16384

noncomputable section

namespace Cert.KernelIdeal.Tile

open Cert.KernelIdeal Cert.KernelIdeal.Gen Cert.EdgeLoss Idealize.ShloMosaic Idealize.ShloMosaic.TcCoe Idealize.ShloMosaic.ValueIdx

variable (x0 x1 : Vec Ideal S128x8192 .bf16) (x2 : Vec Ideal S128x1 .f32) (x3 : Vec Ideal S1024x8192 .bf16) (x4 : Vec Ideal S1x1024 .f32)
  (x5 : Vec Ideal S8192x1024 .bf16) (x6 : Vec Ideal S1x8192 .f32)

/-- The four coordinates of the product's operand indices at output index i and contraction index q: the left operand is read
    at (i 0, q), the right operand at (i 1, q). -/
private theorem dd_lhs_0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
private theorem dd_lhs_1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
private theorem dd_rhs_0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
private theorem dd_rhs_1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product of the decoder chunk at (a, j): the sum over the 1024 hidden units. -/
private theorem dd_matmul_apply (h : FVec Ideal S256x1024 .bf16) (w : FVec Ideal S1024x1024 .bf16) (a : Fin 256) (j : Fin 1024) :
    matmul dot_S256x1024_S1024x1024_S256x1024_1_1_0_0_n_n none h w (constant S256x1024 .f32 0x00000000#32) (ix2 a j) = ∑ k : Fin 1024, h (ix2 a k) * w (ix2 j k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 a j) ((ValueIdx.contrEquiv1 dot_S256x1024_S1024x1024_S256x1024_1_1_0_0_n_n 1024 rfl rfl).symm k) = ix2 a k := funext fun b => Fin.ext (by
    match b with
    | ⟨0, _⟩ => exact dd_lhs_0 _ _
    | ⟨1, _⟩ => exact (dd_lhs_1 _ _).trans hk)
  have er : dot_S256x1024_S1024x1024_S256x1024_1_1_0_0_n_n.rhsIdx (ix2 a j) ((ValueIdx.contrEquiv1 dot_S256x1024_S1024x1024_S256x1024_1_1_0_0_n_n 1024 rfl rfl).symm k) = ix2 j k := funext fun b => Fin.ext (by
    match b with
    | ⟨0, _⟩ => exact dd_rhs_0 _ _
    | ⟨1, _⟩ => exact (dd_rhs_1 _ _).trans hk)
  rw [el, er]

/-- The decoder on a chunk, at stacked row a and unit j of the chunk: one logistic unit over the 1024 hidden entries of
    row a against row j of the chunk's weights, with entry j of the chunk's bias. -/
theorem decChunk_apply (h : FVec Ideal S256x1024 .bf16) (w : Vec Ideal S1024x1024 .bf16) (b : Vec Ideal S1x1024 .f32)
    (a : Fin 256) (j : Fin 1024) :
    decChunk h w b (ix2 a j) = act (fun k : Fin 1024 => h (ix2 a k)) (fun k => w (ix2 j k)) (b (ix2 0 j)) := by
  unfold decChunk act
  rw [shapeCast_self, shapeCast_self]
  show Ideal.logistic (matmul dot_S256x1024_S1024x1024_S256x1024_1_1_0_0_n_n none h w (constant S256x1024 .f32 0x00000000#32) (ix2 a j) + broadcastTo S256x1024 b broadcasts_S1x1024_S256x1024 (ix2 a j)) = _
  rw [dd_matmul_apply]
  refine congrArg (fun t => Ideal.logistic ((∑ k : Fin 1024, h (ix2 a k) * w (ix2 j k)) + t)) ?_
  exact broadcastTo_apply b broadcasts_S1x1024_S256x1024 (ix2 a j) (ix2 0 j) (fun c => match c with
    | ⟨0, _⟩ => by show 0 = if (1 : Nat) = 1 then 0 else _; rw [if_pos rfl]
    | ⟨1, _⟩ => by show j.val = if (1024 : Nat) = 1 then 0 else j.val; rw [if_neg (by decide)])

/-- Chunk c of W2's rows. -/
theorem wAt_apply (c : Fin 8) (j k : Fin 1024) : wAt x5 c (ix2 j k) = x5 (ix2 (colOf c j) k) := by
  refine congrArg x5 (funext fun a => Fin.ext ?_)
  match a with
  | ⟨0, _⟩ => show 1024 * c.val + 1 * j.val = 1024 * c.val + j.val; omega
  | ⟨1, _⟩ => show 0 + 1 * k.val = k.val; omega
/-- Chunk c of b2. -/
theorem bAt_apply (c : Fin 8) (j : Fin 1024) : bAt x6 c (ix2 0 j) = x6 (ix2 0 (colOf c j)) := by
  refine congrArg x6 (funext fun a => Fin.ext ?_)
  match a with
  | ⟨0, _⟩ => show 0 + 1 * 0 = 0; omega
  | ⟨1, _⟩ => show 1024 * c.val + 1 * j.val = 1024 * c.val + j.val; omega
/-- Chunk c of the xi block's columns. -/
theorem xiAt_apply (c : Fin 8) (r : Fin 128) (j : Fin 1024) : xiAt x0 c (ix2 r j) = x0 (ix2 r (colOf c j)) := by
  refine congrArg x0 (funext fun a => Fin.ext ?_)
  match a with
  | ⟨0, _⟩ => show 0 + 1 * r.val = r.val; omega
  | ⟨1, _⟩ => show 1024 * c.val + 1 * j.val = 1024 * c.val + j.val; omega
/-- Chunk c of the xj block's columns. -/
theorem xjAt_apply (c : Fin 8) (r : Fin 128) (j : Fin 1024) : xjAt x1 c (ix2 r j) = x1 (ix2 r (colOf c j)) := by
  refine congrArg x1 (funext fun a => Fin.ext ?_)
  match a with
  | ⟨0, _⟩ => show 0 + 1 * r.val = r.val; omega
  | ⟨1, _⟩ => show 1024 * c.val + 1 * j.val = 1024 * c.val + j.val; omega

/-- Row r of the upper half of the stacked rows. -/
private theorem upper_row (s : FVec Ideal S256x1024 .f32) (r : Fin 128) (j : Fin 1024) :
    upper s (ix2 r j) = s (ix2 (⟨r.val, by omega⟩ : Fin 256) j) := by
  unfold upper
  exact extractStridedSlice_apply ![0, 0] s slices_S256x1024_o0_0_S128x1024 (ix2 r j) (ix2 (⟨r.val, by omega⟩ : Fin 256) j) (fun a => match a with
    | ⟨0, _⟩ => by show r.val = 0 + r.val; omega
    | ⟨1, _⟩ => by show j.val = 0 + j.val; omega)

/-- Row r of the lower half of the stacked rows. -/
private theorem lower_row (s : FVec Ideal S256x1024 .f32) (r : Fin 128) (j : Fin 1024) :
    lower s (ix2 r j) = s (ix2 (⟨128 + r.val, by omega⟩ : Fin 256) j) := by
  unfold lower
  exact extractStridedSlice_apply ![128, 0] s slices_S256x1024_o128_0_S128x1024 (ix2 r j) (ix2 (⟨128 + r.val, by omega⟩ : Fin 256) j) (fun a => match a with
    | ⟨0, _⟩ => by show 128 + r.val = 128 + r.val; rfl
    | ⟨1, _⟩ => by show j.val = 0 + j.val; omega)

/-- Row r of the column of row sums of squares. -/
private theorem rowSq_row (d : FVec Ideal S128x1024 .f32) (r : Fin 128) :
    rowSq d (ix2 r 0) = ∑ j : Fin 1024, d (ix2 r j) * d (ix2 r j) := by
  unfold rowSq
  refine (shapeCast_apply _ shapeCasts_S128_S128x1 (ix2 r 0) (ix1 r) ?_).trans ?_
  · rw [Shape.rowMajor_val_one, Shape.rowMajor_val_two]
    show r.val = r.val * 1 + 0
    omega
  · refine (Ideal.multiReduction_add_single (mulf d d) _ reduces_S128x1024_S128 (.inl rfl) rfl (ix1 r)).trans ?_
    refine Finset.sum_congr rfl fun j _ => ?_
    have e : reduces_S128x1024_S128.lift (ix1 r) j = ix2 r j := funext fun a => Fin.ext (by
      match a with
      | ⟨0, _⟩ => rfl
      | ⟨1, _⟩ => rfl)
    rw [e]
    rfl

/-- A widened chunk of feature rows has the chunk's entries. -/
private theorem widen_entry (xc : Vec Ideal S128x1024 .bf16) (r : Fin 128) (j : Fin 1024) : widen xc (ix2 r j) = xc (ix2 r j) := by
  unfold widen
  rw [shapeCast_self]
  rfl

/-- One chunk's step of the first accumulator, at row r: the 1024 squared differences of the chunk's two halves are added. -/
private theorem stepD_row (acc : FVec Ideal S128x1 .f32) (s : FVec Ideal S256x1024 .f32) (r : Fin 128) :
    stepD acc s (ix2 r 0) = acc (ix2 r 0) + ∑ j : Fin 1024,
      (s (ix2 (⟨r.val, by omega⟩ : Fin 256) j) - s (ix2 (⟨128 + r.val, by omega⟩ : Fin 256) j))
        * (s (ix2 (⟨r.val, by omega⟩ : Fin 256) j) - s (ix2 (⟨128 + r.val, by omega⟩ : Fin 256) j)) := by
  unfold stepD
  refine (addf_apply _ _ _).trans ?_
  rw [rowSq_row]
  refine congrArg (acc (ix2 r 0) + ·) (Finset.sum_congr rfl fun j _ => ?_)
  rw [subf_apply, upper_row, lower_row]

/-- One chunk's step of the second accumulator, at row r. -/
private theorem stepI_row (acc : FVec Ideal S128x1 .f32) (s : FVec Ideal S256x1024 .f32) (xc : Vec Ideal S128x1024 .bf16) (r : Fin 128) :
    stepI acc s xc (ix2 r 0) = acc (ix2 r 0) + ∑ j : Fin 1024,
      (xc (ix2 r j) - s (ix2 (⟨r.val, by omega⟩ : Fin 256) j)) * (xc (ix2 r j) - s (ix2 (⟨r.val, by omega⟩ : Fin 256) j)) := by
  unfold stepI
  refine (addf_apply _ _ _).trans ?_
  rw [rowSq_row]
  refine congrArg (acc (ix2 r 0) + ·) (Finset.sum_congr rfl fun j _ => ?_)
  rw [subf_apply, upper_row, widen_entry]

/-- One chunk's step of the third accumulator, at row r. -/
private theorem stepJ_row (acc : FVec Ideal S128x1 .f32) (s : FVec Ideal S256x1024 .f32) (xc : Vec Ideal S128x1024 .bf16) (r : Fin 128) :
    stepJ acc s xc (ix2 r 0) = acc (ix2 r 0) + ∑ j : Fin 1024,
      (xc (ix2 r j) - s (ix2 (⟨128 + r.val, by omega⟩ : Fin 256) j)) * (xc (ix2 r j) - s (ix2 (⟨128 + r.val, by omega⟩ : Fin 256) j)) := by
  unfold stepJ
  refine (addf_apply _ _ _).trans ?_
  rw [rowSq_row]
  refine congrArg (acc (ix2 r 0) + ·) (Finset.sum_congr rfl fun j _ => ?_)
  rw [subf_apply, lower_row, widen_entry]

/-- The accumulators start at zero. -/
private theorem zeroCol_row (r : Fin 128) : (k0_pay6 (F := Ideal)) (ix2 r 0) = 0 := Ideal.ofBits_zero_f32

/-- The decoder's activation at xi row r and unit j of chunk c is the reconstruction of that row at column 1024 c + j. -/
private theorem decAt_upper (c : Fin 8) (r : Fin 128) (j : Fin 1024) :
    decAt x0 x1 x3 x4 x5 x6 c (ix2 (⟨r.val, by omega⟩ : Fin 256) j)
      = rec (W1of x3) (b1of x4) (W2of x5) (b2of x6) (rowsOf x0 r) (colOf c j) := by
  unfold decAt
  rw [decChunk_apply]
  have e1 : (fun k : Fin 1024 => hidden x0 x1 x3 x4 (ix2 (⟨r.val, by omega⟩ : Fin 256) k)) = enc (W1of x3) (b1of x4) (rowsOf x0 r) :=
    funext fun k => hidden_upper x0 x1 x3 x4 r k
  have e2 : (fun k : Fin 1024 => wAt x5 c (ix2 j k)) = W2of x5 (colOf c j) := funext fun k => wAt_apply x5 c j k
  rw [e1, e2, bAt_apply]
  rfl

/-- The same at xj row r (stacked row 128 + r). -/
private theorem decAt_lower (c : Fin 8) (r : Fin 128) (j : Fin 1024) :
    decAt x0 x1 x3 x4 x5 x6 c (ix2 (⟨128 + r.val, by omega⟩ : Fin 256) j)
      = rec (W1of x3) (b1of x4) (W2of x5) (b2of x6) (rowsOf x1 r) (colOf c j) := by
  unfold decAt
  rw [decChunk_apply]
  have e1 : (fun k : Fin 1024 => hidden x0 x1 x3 x4 (ix2 (⟨128 + r.val, by omega⟩ : Fin 256) k)) = enc (W1of x3) (b1of x4) (rowsOf x1 r) :=
    funext fun k => hidden_lower x0 x1 x3 x4 r k
  have e2 : (fun k : Fin 1024 => wAt x5 c (ix2 j k)) = W2of x5 (colOf c j) := funext fun k => wAt_apply x5 c j k
  rw [e1, e2, bAt_apply]
  rfl

/-- Eight chunk sums added one after the other to a zero start are the sum over all 8192 columns. -/
private theorem acc8 (f : Fin 8192 → EReal) (z : EReal) (hz : z = 0) (S : Fin 8 → EReal) (hS : ∀ c, S c = ∑ j, f (colOf c j)) :
    ((((((((z + S 0) + S 1) + S 2) + S 3) + S 4) + S 5) + S 6) + S 7) = ∑ n, f n := by
  rw [hz, hS 0, hS 1, hS 2, hS 3, hS 4, hS 5, hS 6, hS 7]
  exact chunks_from_zero f

/-- Row r of the first accumulator: the squared distance of the two decoded rows. -/
theorem accD_apply (r : Fin 128) :
    accD x0 x1 x3 x4 x5 x6 (ix2 r 0)
      = ∑ n : Fin 8192, (rec (W1of x3) (b1of x4) (W2of x5) (b2of x6) (rowsOf x0 r) n - rec (W1of x3) (b1of x4) (W2of x5) (b2of x6) (rowsOf x1 r) n)
          * (rec (W1of x3) (b1of x4) (W2of x5) (b2of x6) (rowsOf x0 r) n - rec (W1of x3) (b1of x4) (W2of x5) (b2of x6) (rowsOf x1 r) n) := by
  unfold accD
  rw [stepD_row, stepD_row, stepD_row, stepD_row, stepD_row, stepD_row, stepD_row, stepD_row]
  exact acc8
    (fun n => (rec (W1of x3) (b1of x4) (W2of x5) (b2of x6) (rowsOf x0 r) n - rec (W1of x3) (b1of x4) (W2of x5) (b2of x6) (rowsOf x1 r) n)
      * (rec (W1of x3) (b1of x4) (W2of x5) (b2of x6) (rowsOf x0 r) n - rec (W1of x3) (b1of x4) (W2of x5) (b2of x6) (rowsOf x1 r) n))
    _ (zeroCol_row r)
    (fun c => ∑ j : Fin 1024,
      (decAt x0 x1 x3 x4 x5 x6 c (ix2 (⟨r.val, by omega⟩ : Fin 256) j) - decAt x0 x1 x3 x4 x5 x6 c (ix2 (⟨128 + r.val, by omega⟩ : Fin 256) j))
        * (decAt x0 x1 x3 x4 x5 x6 c (ix2 (⟨r.val, by omega⟩ : Fin 256) j) - decAt x0 x1 x3 x4 x5 x6 c (ix2 (⟨128 + r.val, by omega⟩ : Fin 256) j)))
    (fun c => Finset.sum_congr rfl fun j _ => by rw [decAt_upper, decAt_lower])

/-- Row r of the second accumulator: the squared distance of xi row r from its reconstruction. -/
theorem accI_apply (r : Fin 128) :
    accI x0 x1 x3 x4 x5 x6 (ix2 r 0)
      = ∑ n : Fin 8192, (rowsOf x0 r n - rec (W1of x3) (b1of x4) (W2of x5) (b2of x6) (rowsOf x0 r) n)
          * (rowsOf x0 r n - rec (W1of x3) (b1of x4) (W2of x5) (b2of x6) (rowsOf x0 r) n) := by
  unfold accI
  rw [stepI_row, stepI_row, stepI_row, stepI_row, stepI_row, stepI_row, stepI_row, stepI_row]
  exact acc8
    (fun n => (rowsOf x0 r n - rec (W1of x3) (b1of x4) (W2of x5) (b2of x6) (rowsOf x0 r) n)
      * (rowsOf x0 r n - rec (W1of x3) (b1of x4) (W2of x5) (b2of x6) (rowsOf x0 r) n))
    _ (zeroCol_row r)
    (fun c => ∑ j : Fin 1024,
      (xiAt x0 c (ix2 r j) - decAt x0 x1 x3 x4 x5 x6 c (ix2 (⟨r.val, by omega⟩ : Fin 256) j))
        * (xiAt x0 c (ix2 r j) - decAt x0 x1 x3 x4 x5 x6 c (ix2 (⟨r.val, by omega⟩ : Fin 256) j)))
    (fun c => Finset.sum_congr rfl fun j _ => by rw [decAt_upper, xiAt_apply]; rfl)

/-- Row r of the third accumulator: the squared distance of xj row r from its reconstruction. -/
theorem accJ_apply (r : Fin 128) :
    accJ x0 x1 x3 x4 x5 x6 (ix2 r 0)
      = ∑ n : Fin 8192, (rowsOf x1 r n - rec (W1of x3) (b1of x4) (W2of x5) (b2of x6) (rowsOf x1 r) n)
          * (rowsOf x1 r n - rec (W1of x3) (b1of x4) (W2of x5) (b2of x6) (rowsOf x1 r) n) := by
  unfold accJ
  rw [stepJ_row, stepJ_row, stepJ_row, stepJ_row, stepJ_row, stepJ_row, stepJ_row, stepJ_row]
  exact acc8
    (fun n => (rowsOf x1 r n - rec (W1of x3) (b1of x4) (W2of x5) (b2of x6) (rowsOf x1 r) n)
      * (rowsOf x1 r n - rec (W1of x3) (b1of x4) (W2of x5) (b2of x6) (rowsOf x1 r) n))
    _ (zeroCol_row r)
    (fun c => ∑ j : Fin 1024,
      (xjAt x1 c (ix2 r j) - decAt x0 x1 x3 x4 x5 x6 c (ix2 (⟨128 + r.val, by omega⟩ : Fin 256) j))
        * (xjAt x1 c (ix2 r j) - decAt x0 x1 x3 x4 x5 x6 c (ix2 (⟨128 + r.val, by omega⟩ : Fin 256) j)))
    (fun c => Finset.sum_congr rfl fun j _ => by rw [decAt_lower, xjAt_apply]; rfl)

end Cert.KernelIdeal.Tile

end
-- ==== Proof.TileValue.lean ====
/-
  What one grid point stores, entry by entry: the block it loaded, with the tile's loss added at entry (0,0,0)
  and zero added everywhere else.
-/
import proofs.«403131_j63050119906009_2_alg».proof.Proof.BodyForm
import proofs.«403131_j63050119906009_2_alg».proof.Proof.EdgeTerms
import proofs.«403131_j63050119906009_2_alg».proof.Proof.TileArgs
import proofs.«403131_j63050119906009_2_alg».proof.Proof.TileLayer1
import proofs.«403131_j63050119906009_2_alg».proof.Proof.TileChunks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen Cert.EdgeLoss Idealize.ShloMosaic Idealize.ShloMosaic.TcCoe Idealize.ShloMosaic.ValueIdx

variable (x0 x1 : Vec Ideal S128x8192 .bf16) (x2 : Vec Ideal S128x1 .f32) (x3 : Vec Ideal S1024x8192 .bf16) (x4 : Vec Ideal S1x1024 .f32)
  (x5 : Vec Ideal S8192x1024 .bf16) (x6 : Vec Ideal S1x8192 .f32)

/-! ## The corner mask -/

/-- A coordinate h below 2³², written as a 32-bit word, equals the zero word exactly when h = 0. -/
private theorem cmpi_eq_zero (h : Nat) (hh : h < 4294967296) :
    IntOp.cmpi .eq (BitVec.ofNat 32 h) 0#32 = if h = 0 then 1#1 else 0#1 := by
  unfold IntOp.cmpi
  by_cases h0 : h = 0
  · subst h0; rfl
  · rw [if_neg h0]
    have hne : (BitVec.ofNat 32 h == 0#32) = false := by
      rw [beq_eq_false_iff_ne]
      intro e
      have e' := congrArg BitVec.toNat e
      rw [BitVec.toNat_ofNat, Nat.mod_eq_of_lt hh] at e'
      exact h0 e'
    show BitVec.ofBool (BitVec.ofNat 32 h == 0#32) = 0#1
    rw [hne]; rfl

/-- The mask bit at (r, l) is set exactly at r = 0 and l = 0: the conjunction of "row coordinate is 0" and
    "lane coordinate is 0". -/
private theorem cornerMask_apply (r : Fin 8) (l : Fin 128) :
    cornerMask (ix2 r l) = if r.val = 0 ∧ l.val = 0 then 1#1 else 0#1 := by
  unfold cornerMask
  show IntOp.andi (IntOp.cmpi .eq (iota .tc S8x128 32 [0] iota_S8x128_d0_w32 (ix2 r l)) 0#32)
      (IntOp.cmpi .eq (iota .tc S8x128 32 [1] iota_S8x128_d1_w32 (ix2 r l)) 0#32) = _
  rw [iota_single_apply, iota_single_apply]
  show IntOp.andi (IntOp.cmpi .eq (BitVec.ofNat 32 r.val) 0#32) (IntOp.cmpi .eq (BitVec.ofNat 32 l.val) 0#32) = _
  rw [cmpi_eq_zero r.val (by omega), cmpi_eq_zero l.val (by omega)]
  by_cases hr : r.val = 0 <;> by_cases hl : l.val = 0 <;> simp [hr, hl, IntOp.andi]

/-! ## A column summed to a scalar -/

/-- The index set of a [1,128,1] array is the range of its middle coordinate (the two outer coordinates are 0). -/
private def midEquiv : S1x128x1.Idx ≃ Fin 128 where
  toFun i := i 1
  invFun r := ix3 (0 : Fin 1) r (0 : Fin 1)
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- The scalar a [128,1] column is summed to is the sum of its 128 entries: the column is viewed as [1,128,1], summed
    over every index into a one-entry result, and that entry is read; the sum over the [1,128,1] index set is the sum
    over the middle coordinate. -/
private theorem colSum_eq (v : FVec Ideal S128x1 .f32) : colSum v = ∑ r : Fin 128, v (ix2 r 0) := by
  unfold colSum extractAt
  refine (shapeCast_apply _ shapeCasts_S1_S1x1x1 _ (ix1 (0 : Fin 1)) (by
    rw [Shape.rowMajor_val_three, Shape.rowMajor_val_one]; rfl)).trans ?_
  refine (Ideal.multiReduction_add_total _ _ reduces_S1x128x1_S1 (by decide) (.inl rfl) rfl _).trans ?_
  refine Fintype.sum_equiv midEquiv _ _ (fun i => ?_)
  rw [eq_ix3 i]
  refine (shapeCast_ab_1ab_apply v shapeCasts_S128x1_S1x128x1 (i 0) (i 1) (i 2)).trans ?_
  exact congrArg (fun t : Fin 1 => v (ix2 (i 1) t)) (Subsingleton.elim (α := Fin 1) (i 2) 0)

/-! ## The last steps at an entry -/

/-- The stored block at entry (p, r, l): the loaded block's entry (0, r, l) plus, at r = 0 and l = 0, the sum of the
    three scalars, and plus the zero word's value 0 elsewhere. -/
private theorem finish_apply (lab : FVec Ideal S128x1 .f32) (t1 : Ideal .f32) (sqD sqI sqJ : FVec Ideal S128x1 .f32)
    (prevL : Vec Ideal S1x8x128 .f32) (p : Fin 1) (r : Fin 8) (l : Fin 128) :
    finish lab t1 sqD sqI sqJ prevL (ix3 p r l)
      = prevL (ix3 p r l) + (if r.val = 0 ∧ l.val = 0 then
          (t1 + colSum (mulf (sqrt sqD) lab)) + colSum (mulf (weightCol lab) (addf (sqrt sqI) (sqrt sqJ))) else 0) := by
  unfold finish
  refine (shapeCast_ab_1ab_apply _ shapeCasts_S8x128_S1x8x128 p r l).trans ?_
  rw [addf_apply, select_apply, cornerMask_apply, broadcast_apply, broadcast_apply]
  obtain rfl : p = 0 := Subsingleton.elim _ _
  rw [shapeCast_1ab_ab_apply]
  by_cases h : r.val = 0 ∧ l.val = 0
  · rw [if_pos h, if_pos h, select_one]; rfl
  · rw [if_neg h, if_neg h, select_zero]
    show _ + Ideal.ofBits .f32 0x00000000#32 = _
    rw [Ideal.ofBits_zero_f32]

/-! ## The three scalars are the tile's three sums -/

/-- The second scalar: row r of the column is sqrt of the first accumulator's row r, the distance of the two
    reconstructions, times the label. -/
private theorem secondSum_eq :
    colSum (mulf (sqrt (accD x0 x1 x3 x4 x5 x6)) (labels x2))
      = ∑ r : Fin 128, term2 (W1of x3) (b1of x4) (W2of x5) (b2of x6) (rowsOf x0 r) (rowsOf x1 r) (labOf x2 r) := by
  rw [colSum_eq]
  refine Finset.sum_congr rfl (fun r _ => ?_)
  show Ideal.sqrt (accD x0 x1 x3 x4 x5 x6 (ix2 r 0)) * labels x2 (ix2 r 0) = _
  rw [accD_apply, labels_apply]
  rfl

/-- The third scalar: row r of the column is the label's weight times the sum of the two reconstruction distances,
    each sqrt of an accumulator's row r. -/
private theorem thirdSum_eq :
    colSum (mulf (weightCol (labels x2)) (addf (sqrt (accI x0 x1 x3 x4 x5 x6)) (sqrt (accJ x0 x1 x3 x4 x5 x6))))
      = ∑ r : Fin 128, term3 (W1of x3) (b1of x4) (W2of x5) (b2of x6) (rowsOf x0 r) (rowsOf x1 r) (labOf x2 r) := by
  rw [colSum_eq]
  refine Finset.sum_congr rfl (fun r _ => ?_)
  show weight (labels x2 (ix2 r 0)) * (Ideal.sqrt (accI x0 x1 x3 x4 x5 x6 (ix2 r 0)) + Ideal.sqrt (accJ x0 x1 x3 x4 x5 x6 (ix2 r 0))) = _
  rw [accI_apply, accJ_apply, labels_apply]
  rfl

/-- The stored block at entry (p, r, l). -/
theorem pointBlock_apply (prevL : Vec Ideal S1x8x128 .f32) (p : Fin 1) (r : Fin 8) (l : Fin 128) :
    pointBlock x0 x1 x2 x3 x4 x5 x6 prevL (ix3 p r l)
      = prevL (ix3 p r l) + (if r.val = 0 ∧ l.val = 0 then pointLoss x0 x1 x2 x3 x4 x5 x6 else 0) := by
  unfold pointBlock
  rw [finish_apply, firstSum_eq, secondSum_eq, thirdSum_eq]
  rfl

/-- The zero block the first point of a row stores first. -/
theorem zeroBlock_apply (y : S1x8x128.Idx) : (k0_pay1 (F := Ideal)) y = 0 := by
  show Ideal.ofBits .f32 0x00000000#32 = 0
  exact Ideal.ofBits_zero_f32

end Cert.KernelIdeal.Tile

end
-- ==== Proof.Accumulate.lean ====
/-
  The output array after the run. Block p of the [2,8,128] output is written back once, after the last of row p's
  32 grid points; the first point of the row stores zero and adds its tile's loss at entry (0,0), every later point
  adds its own to what the point before left. So entry (p,0,0) ends at the sum of the 32 losses of row p's tiles
  and every other entry at zero.
-/
import proofs.«403131_j63050119906009_2_alg».proof.Proof.LossArgs
import proofs.«403131_j63050119906009_2_alg».proof.Proof.BodyForm
import proofs.«403131_j63050119906009_2_alg».proof.Proof.TileValue
import Idealize.ShloMosaic.Lib.Pipeline.Value
import Idealize.ShloMosaic.PureOps.Ideal.Laws

set_option maxRecDepth 16384

noncomputable section

namespace Cert.KernelIdeal.Loss

open Cert.KernelIdeal Cert.KernelIdeal.Gen Cert.EdgeLoss Idealize.ShloMosaic Idealize.ShloMosaic.TcCoe Idealize.ShloMosaic.ValueIdx
open Idealize.SL Idealize.SL.Sem

variable (m : (ℓ : Loc nD τ sig) → Buf (Elt Ideal) ℓ) (c : Dev nD)

/-- The three zero offsets of a whole-block load, as the constant function. -/
theorem accZeroOffsets : (![0, 0, 0] : Fin 3 → Nat) = fun _ => 0 := funext fun a => by fin_cases a <;> rfl

/-- What point n adds to its row's accumulator entry: the point's loss inside the grid, zero past it. -/
def pointAddend (n : ℕ) : EReal := if h : n < cfg0.N then pointLossAt m c ⟨n, h⟩ else 0

/-- Inside the grid the addend is the point's loss. -/
theorem pointAddend_of_lt (n : ℕ) (h : n < cfg0.N) : pointAddend m c n = pointLossAt m c ⟨n, h⟩ := dif_pos h

/-- The first point of a row leaves its own block over the zero block. -/
theorem staged_first (t : Fin cfg0.N) (h0 : t.val % 32 = 0) :
    outsAt0 m c t.val t.isLt
      = Tile.pointBlock (iblk m c 0 t) (iblk m c 1 t) (iblk m c 2 t) (iblk m c 3 t) (iblk m c 4 t) (iblk m c 5 t) (iblk m c 6 t) (k0_pay1 (F := Ideal)) :=
  (outsAt0_A m c t h0).trans
    (Tile.out_A c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) ((hcond0_0 t).mpr h0)
      (iblk m c 0 t) (iblk m c 1 t) (iblk m c 2 t) (iblk m c 3 t) (iblk m c 4 t) (iblk m c 5 t) (iblk m c 6 t))

/-- Every later point of a row leaves its own block over what the point before left. -/
theorem staged_next (t : Fin cfg0.N) (h0 : ¬t.val % 32 = 0) :
    outsAt0 m c t.val t.isLt
      = Tile.pointBlock (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)) := by
  rw [outsAt0_B m c t h0,
    Tile.out_B c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (fun h => h0 ((hcond0_0 t).mp h))
      (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)),
    View.ld_unit_zero accZeroOffsets]

/-- The first point of a row: entry (0,0) holds the point's own loss, every other entry zero. -/
theorem staged_first_apply (t : Fin cfg0.N) (h0 : t.val % 32 = 0) (p : Fin 1) (r : Fin 8) (l : Fin 128) :
    outsAt0 m c t.val t.isLt (ix3 p r l)
      = if r.val = 0 ∧ l.val = 0 then ∑ s ∈ Finset.range (t.val % 32 + 1), pointAddend m c (32 * (t.val / 32) + s) else 0 := by
  have e1 : t.val % 32 + 1 = 1 := by omega
  have e2 : 32 * (t.val / 32) + 0 = t.val := by omega
  rw [staged_first m c t h0, Tile.pointBlock_apply, Tile.zeroBlock_apply, zero_add, e1, Finset.sum_range_one, e2,
    pointAddend_of_lt m c t.val t.isLt]
  rfl

/-- A later point of a row: what the point before left, with the point's own loss added at entry (0,0). -/
theorem staged_next_apply (t : Fin cfg0.N) (h0 : ¬t.val % 32 = 0) (p : Fin 1) (r : Fin 8) (l : Fin 128)
    (ih : outsAt0 m c (t.val - 1) (Nat.lt_of_le_of_lt (Nat.sub_le _ _) t.isLt) (ix3 p r l)
      = if r.val = 0 ∧ l.val = 0 then ∑ s ∈ Finset.range ((t.val - 1) % 32 + 1), pointAddend m c (32 * ((t.val - 1) / 32) + s) else 0) :
    outsAt0 m c t.val t.isLt (ix3 p r l)
      = if r.val = 0 ∧ l.val = 0 then ∑ s ∈ Finset.range (t.val % 32 + 1), pointAddend m c (32 * (t.val / 32) + s) else 0 := by
  have e1 : t.val % 32 + 1 = ((t.val - 1) % 32 + 1) + 1 := by omega
  have e2 : (t.val - 1) / 32 = t.val / 32 := by omega
  have e3 : 32 * (t.val / 32) + ((t.val - 1) % 32 + 1) = t.val := by omega
  rw [staged_next m c t h0, Tile.pointBlock_apply, ih, e1, e2, Finset.sum_range_succ _ ((t.val - 1) % 32 + 1), e3,
    pointAddend_of_lt m c t.val t.isLt]
  by_cases hc : r.val = 0 ∧ l.val = 0
  · simp only [if_pos hc]; rfl
  · simp only [if_neg hc, add_zero]

/-- After point n the staging block holds at entry (0,0) the sum of the addends of the row's points up to n,
    and zero at every other entry. -/
theorem staged_apply (n : ℕ) : ∀ (hn : n < cfg0.N) (p : Fin 1) (r : Fin 8) (l : Fin 128),
    outsAt0 m c n hn (ix3 p r l)
      = if r.val = 0 ∧ l.val = 0 then ∑ s ∈ Finset.range (n % 32 + 1), pointAddend m c (32 * (n / 32) + s) else 0 := by
  induction n with
  | zero => intro hn p r l; exact staged_first_apply m c ⟨0, hn⟩ rfl p r l
  | succ k ih =>
    intro hn p r l
    by_cases h0 : (k + 1) % 32 = 0
    · exact staged_first_apply m c ⟨k + 1, hn⟩ h0 p r l
    · exact staged_next_apply m c ⟨k + 1, hn⟩ h0 p r l (ih (Nat.lt_of_succ_lt hn) p r l)

/-- The sum of the 32 addends of row q of the grid. -/
def gridRowSum (q : ℕ) : EReal := ∑ s ∈ Finset.range 32, pointAddend m c (32 * q + s)

/-- What the output array is shown to end holding: row q's sum at entry (q,0,0), zero at every other entry. -/
def outTotal : S2x8x128.Idx → EReal :=
  fun i => if (i 1).val = 0 ∧ (i 2).val = 0 then gridRowSum m c (i 0).val else 0

/-- The same at an index whose coordinates are named. -/
theorem outTotal_apply (i : S2x8x128.Idx) (q a b : ℕ) (h0 : (i 0).val = q) (h1 : (i 1).val = a) (h2 : (i 2).val = b) :
    outTotal m c i = if a = 0 ∧ b = 0 then gridRowSum m c q else 0 := by
  subst h0 h1 h2; rfl

/-- The output's block index at point t: block t / 32 of the two, at the origin of the other two axes. -/
theorem outBlockIndex : ∀ t : Fin cfg0.N,
    win0_7.index t (0 : Fin 3) = t.val / 32 ∧ win0_7.index t (1 : Fin 3) = 0 ∧ win0_7.index t (2 : Fin 3) = 0 :=
  (by decide +kernel : ∀ t : Fin grid0.N,
    win0_7.index t (0 : Fin 3) = t.val / 32 ∧ win0_7.index t (1 : Fin 3) = 0 ∧ win0_7.index t (2 : Fin 3) = 0)

/-- Where entry (p,r,l) of point t's block sits in the array. -/
theorem outBlock_emb_coords (t : Fin cfg0.N) (p : Fin 1) (r : Fin 8) (l : Fin 128) :
    (((win0_7.rect t).emb (ix3 p r l) (0 : Fin 3) : Fin 2) : ℕ) = t.val / 32
      ∧ (((win0_7.rect t).emb (ix3 p r l) (1 : Fin 3) : Fin 8) : ℕ) = r.val
      ∧ (((win0_7.rect t).emb (ix3 p r l) (2 : Fin 3) : Fin 128) : ℕ) = l.val := by
  obtain ⟨j0, j1, j2⟩ := outBlockIndex t
  have hp : p.val = 0 := by omega
  refine ⟨?_, ?_, ?_⟩
  · refine (Pipeline.Window.rect_emb_val win0_7 t (ix3 p r l) (0 : Fin 3)).trans ?_
    rw [j0]; show t.val / 32 * 1 + p.val = _; omega
  · refine (Pipeline.Window.rect_emb_val win0_7 t (ix3 p r l) (1 : Fin 3)).trans ?_
    rw [j1]; show 0 * 8 + r.val = _; omega
  · refine (Pipeline.Window.rect_emb_val win0_7 t (ix3 p r l) (2 : Fin 3)).trans ?_
    rw [j2]; show 0 * 128 + l.val = _; omega

/-- What a row's last point writes back is its block of that array. -/
theorem outFlushed_eq (t : Fin cfg0.N) (hf : (cfg0.win 7).flush t = true) :
    (dats m 0 c).flushed 7 t = ((cfg0.win 7).blk t).view.read (Elt Ideal) (outTotal m c) := by
  have h31 : t.val % 32 = 31 := (flush0_7 t).mp hf
  have e : t.val % 32 + 1 = 32 := by omega
  show (cfg0.win 7).cut (grid0.coords t) ((dats m 0 c).after 7 t) = _
  rw [after0_7]
  funext y
  obtain ⟨p, r, l, rfl⟩ : ∃ (p : Fin 1) (r : Fin 8) (l : Fin 128), y = ix3 p r l := ⟨y 0, y 1, y 2, eq_ix3 y⟩
  obtain ⟨c0, c1, c2⟩ := outBlock_emb_coords t p r l
  rw [View.read_apply]
  show outsAt0 m c t.val t.isLt (ix3 p r l) = outTotal m c ((win0_7.rect t).emb (ix3 p r l))
  rw [staged_apply m c t.val t.isLt p r l, e, outTotal_apply m c _ (t.val / 32) r.val l.val c0 c1 c2]
  rfl

/-- Every entry of the array lies in the block its row's last point writes back. -/
theorem outBlocks_cover (i : S2x8x128.Idx) :
    ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 128 := (i 2).isLt
  have hN : 32 * (i 0).val + 31 < cfg0.N := by rw [N64]; omega
  obtain ⟨j0, j1, j2⟩ := outBlockIndex ⟨32 * (i 0).val + 31, hN⟩
  have hq : (32 * (i 0).val + 31) / 32 = (i 0).val := by omega
  have j0' : win0_7.index ⟨32 * (i 0).val + 31, hN⟩ (0 : Fin 3) = (i 0).val := j0.trans hq
  refine ⟨⟨32 * (i 0).val + 31, hN⟩, (flush0_7 _).mpr (by show (32 * (i 0).val + 31) % 32 = 31; omega), ?_⟩
  show i ∈ ((View.whole main_v26).slice (win0_7.rect ⟨32 * (i 0).val + 31, hN⟩)).set
  rw [View.set_slice_whole, Rect.mem_set_unit]
  intro a
  match a with
  | ⟨0, _⟩ =>
    show win0_7.index ⟨32 * (i 0).val + 31, hN⟩ (0 : Fin 3) * 1 ≤ (i 0).val
      ∧ (i 0).val < win0_7.index ⟨32 * (i 0).val + 31, hN⟩ (0 : Fin 3) * 1 + 1
    rw [j0']; omega
  | ⟨1, _⟩ =>
    show win0_7.index ⟨32 * (i 0).val + 31, hN⟩ (1 : Fin 3) * 8 ≤ (i 1).val
      ∧ (i 1).val < win0_7.index ⟨32 * (i 0).val + 31, hN⟩ (1 : Fin 3) * 8 + 8
    rw [j1]; omega
  | ⟨2, _⟩ =>
    show win0_7.index ⟨32 * (i 0).val + 31, hN⟩ (2 : Fin 3) * 128 ≤ (i 2).val
      ∧ (i 2).val < win0_7.index ⟨32 * (i 0).val + 31, hN⟩ (2 : Fin 3) * 128 + 128
    rw [j2]; omega

/-- So the output array ends holding it. -/
theorem outArr_eq_outTotal : outArr m c = outTotal m c :=
  (dats m 0 c).arrAt_eq_of_cover 7 (outTotal m c) (outFlushed_eq m c) outBlocks_cover

/-- Inside the grid a row's sum is the sum of its 32 points' losses. -/
theorem gridRowSum_eq (p : Fin 2) : gridRowSum m c p.val = ∑ u : Fin 32, pointLossAt m c (pt p u) := by
  unfold gridRowSum
  rw [← Fin.sum_univ_eq_sum_range (fun s => pointAddend m c (32 * p.val + s)) 32]
  refine Finset.sum_congr rfl fun u _ => ?_
  exact pointAddend_of_lt m c (32 * p.val + u.val) (pt p u).isLt

/-- The output array after the run, entry by entry. -/
theorem outArr_apply (p : Fin 2) (r : Fin 8) (l : Fin 128) :
    outArr m c (ix3 p r l) = if r.val = 0 ∧ l.val = 0 then ∑ u : Fin 32, pointLossAt m c (pt p u) else 0 := by
  rw [outArr_eq_outTotal m c, outTotal_apply m c (ix3 p r l) p.val r.val l.val rfl rfl rfl, gridRowSum_eq m c p]

end Cert.KernelIdeal.Loss

end
-- ==== Proof.HostTail.lean ====
/-
  The host operations after the region: the output array is summed over all its entries (from zero), the
  weight-norm term is computed from the arguments by the same operations as on the reference's side, and the
  two are added.
-/
import proofs.«403131_j63050119906009_2_alg».proof.Proof.LossArgs
import Idealize.ShloMosaic.Lib.Pipeline.Value
import Idealize.ShloMosaic.Lib.StableHlo.Run
import Idealize.ShloMosaic.PureOps.Ideal.Laws

set_option maxRecDepth 16384

noncomputable section

namespace Cert.KernelIdeal.Loss

open Cert.KernelIdeal Cert.KernelIdeal.Gen Cert.EdgeLoss Idealize.ShloMosaic Idealize.ShloMosaic.TcCoe Idealize.ShloMosaic.ValueIdx
open Idealize.SL Idealize.SL.Sem

variable (m : (ℓ : Loc nD τ sig) → Buf (Elt Ideal) ℓ) (c : Dev nD)

open Cert.ReferenceIdeal.ReadP in
/-- The operations after the region, as a function of the output array and of the four weight arguments: the
    output summed over all its entries from zero, plus 8192 times the sum of the four norm terms. -/
def tailOf (o : (⟨S2x8x128, .f32⟩ : BufTy).Contents (Elt Ideal))
    (x1 : (⟨S1024x8192, .f32⟩ : BufTy).Contents (Elt Ideal)) (x2 : (⟨S1024, .f32⟩ : BufTy).Contents (Elt Ideal))
    (x3 : (⟨S8192x1024, .f32⟩ : BufTy).Contents (Elt Ideal)) (x4 : (⟨S8192, .f32⟩ : BufTy).Contents (Elt Ideal)) :
    (⟨S_, .f32⟩ : BufTy).Contents (Elt Ideal) :=
  addf (F := Ideal)
    (Host.reduceAdd (F := Ideal) o (constant (F := Ideal) S_ .f32 0x00000000#32) reducesTo_S2x8x128_S_d0_1_2 h_S_)
    (mulf (F := Ideal)
      (addf (F := Ideal)
        (addf (F := Ideal)
          (addf (F := Ideal) (val_main_v47 (F := Ideal) x1) (val_main_v49 (F := Ideal) x2))
          (val_main_v79 (F := Ideal) x3))
        (val_main_v81 (F := Ideal) x4))
      (constant (F := Ideal) S_ .f32 0x46000000#32))

open Cert.ReferenceIdeal.ReadP in
/-- The sum of the four norm terms started from the zero constant is the sum itself, so the tail's second summand
    is the weight-norm term; the first is zero plus the total of the output array. -/
theorem tailOf_eq (o : (⟨S2x8x128, .f32⟩ : BufTy).Contents (Elt Ideal))
    (x1 : (⟨S1024x8192, .f32⟩ : BufTy).Contents (Elt Ideal)) (x2 : (⟨S1024, .f32⟩ : BufTy).Contents (Elt Ideal))
    (x3 : (⟨S8192x1024, .f32⟩ : BufTy).Contents (Elt Ideal)) (x4 : (⟨S8192, .f32⟩ : BufTy).Contents (Elt Ideal)) :
    tailOf o x1 x2 x3 x4 = fun _ => ((0 : EReal) + ∑ y : S2x8x128.Idx, o y) + val_main_v83 (F := Ideal) x1 x2 x3 x4 ix0 := by
  funext i
  obtain rfl : i = ix0 := eq_ix0 i
  have hsum : Host.reduceAdd (F := Ideal) o (constant (F := Ideal) S_ .f32 0x00000000#32) reducesTo_S2x8x128_S_d0_1_2 h_S_ ix0
      = (0 : EReal) + ∑ y : S2x8x128.Idx, o y := by
    simp only [Host.reduceAdd, Ideal.hostReduceAdd_def]
    rw [Ideal.hostReduceAdd_total reducesTo_S2x8x128_S_d0_1_2 (fun b => b.elim0) o _ ix0, constant_apply,
      Ideal.ofBits_zero_f32]
  have hreg : val_main_v83 (F := Ideal) x1 x2 x3 x4 ix0
      = (val_main_v47 (F := Ideal) x1 ix0 + val_main_v49 (F := Ideal) x2 ix0 + val_main_v79 (F := Ideal) x3 ix0
          + val_main_v81 (F := Ideal) x4 ix0) * constant (F := Ideal) S_ .f32 0x46000000#32 ix0 := by
    rw [val_main_v83_apply, val_main_v82_apply, val_main_v80_apply, val_main_v50_apply, val_main_v48_apply,
      val_main_cst_9_apply, val_main_cst_16_apply]
    simp only [Ideal.addf_def, Ideal.mulf_def, Ideal.ofBits_def, Ideal.ofBits_zero_f32, zero_add, constant_apply]
  unfold tailOf
  rw [addf_apply, mulf_apply, addf_apply, addf_apply, addf_apply, hsum, hreg]

/-- After the region the output's buffer holds the output array. -/
theorem exit_out :
    Pipeline.withArrays (cfgs 0).spec c (V0 m c) (fun w => (dats m 0 c).arrAt w (cfgs 0).N) (Proc.devRef .tc main_v26)
      = outArr m c :=
  Pipeline.withArrays_arr spec0 launch0.win.arr_inj c _ _ 7

/-- No window stages the encoder's weights: after the region their buffer holds the argument. -/
theorem exit_arg1 :
    Pipeline.withArrays (cfgs 0).spec c (V0 m c) (fun w => (dats m 0 c).arrAt w (cfgs 0).N) (Proc.devRef .tc main_arg1)
      = m ((c.tc : Thread nD τ).loc main_arg1) :=
  (Pipeline.withArrays_of_ne _ c (V0 m c) _ main_arg1
    (by exact (by decide : ∀ w, Pipeline.arrRef spec0 w ≠ main_arg1))).trans (V_main_arg1 m c)

/-- Nor the encoder's bias. -/
theorem exit_arg2 :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2
    (by exact (by decide : ∀ w, Pipeline.arrRef spec0 w ≠ main_arg2))).trans (V_main_arg2 m c)

/-- Nor the decoder's weights. -/
theorem exit_arg3 :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3
    (by exact (by decide : ∀ w, Pipeline.arrRef spec0 w ≠ main_arg3))).trans (V_main_arg3 m c)

/-- Nor the decoder's bias. -/
theorem exit_arg4 :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4
    (by exact (by decide : ∀ w, Pipeline.arrRef spec0 w ≠ main_arg4))).trans (V_main_arg4 m c)

open Cert.ReferenceIdeal.ReadP in
/-- The program's result is the tail's operations applied to the output array and the four weight arguments. -/
theorem tailVal_form : tailVal m c = tailOf (outArr m c) (m ((c.tc : Thread nD τ).loc main_arg1))
    (m ((c.tc : Thread nD τ).loc main_arg2)) (m ((c.tc : Thread nD τ).loc main_arg3)) (m ((c.tc : Thread nD τ).loc main_arg4)) := by
  unfold tailVal Pipeline.afterTail₀
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  simp only [StableHlo.TRef.ofBuf, StableHlo.TRef.toBuf, cast_eq]
  rw [exit_out m c, exit_arg1 m c, exit_arg2 m c, exit_arg3 m c, exit_arg4 m c]
  unfold tailOf val_main_v47 val_main_v46 val_main_call1_v1 val_main_call1_v0 val_main_call1_cst val_main_cst_8
    val_main_v49 val_main_call2_v1 val_main_call2_v0 val_main_call2_cst
    val_main_v79 val_main_v78 val_main_call4_v1 val_main_call4_v0 val_main_call4_cst val_main_cst_15
    val_main_v81 val_main_call5_v1 val_main_call5_v0 val_main_call5_cst
  rfl

/-- The program's result: the total of the output array plus the weight-norm term. -/
theorem tailVal_eq : tailVal m c = fun _ => ((0 : EReal) + ∑ y : S2x8x128.Idx, outArr m c y) + regm m c := by
  rw [tailVal_form m c, tailOf_eq]
  rfl

end Cert.KernelIdeal.Loss

end
-- ==== Proof.KernelValue.lean ====
/-
  The kernel program's result over the extended reals. The output array is zero except at the two entries (p,0,0),
  which hold the sums of the 32 tile losses of row p; its total is therefore the sum of all 64 tile losses, which
  is the three sums over all 8192 edges; the host adds the weight-norm term. And the run of the program, with its
  result buffer named by that value.
-/
import proofs.«403131_j63050119906009_2_alg».proof.Proof.LossArgs
import proofs.«403131_j63050119906009_2_alg».proof.Proof.Blocks
import proofs.«403131_j63050119906009_2_alg».proof.Proof.Accumulate
import proofs.«403131_j63050119906009_2_alg».proof.Proof.HostTail
import Idealize.ShloMosaic.Lib.ValueIdx
import Mathlib.Algebra.BigOperators.Fin

set_option maxRecDepth 16384

noncomputable section

namespace Cert.KernelIdeal.Loss

open Cert.KernelIdeal Cert.KernelIdeal.Gen Cert.EdgeLoss Idealize.ShloMosaic Idealize.ShloMosaic.TcCoe Idealize.ShloMosaic.ValueIdx
open Idealize.SL Idealize.SL.Sem

variable (m : (ℓ : Loc nD τ sig) → Buf (Elt Ideal) ℓ) (c : Dev nD)

/-- A rank-3 index is its three coordinates. -/
def idx3Equiv {a b d : Nat} : (⟨3, ![a, b, d]⟩ : Shape).Idx ≃ Fin a × Fin b × Fin d where
  toFun y := (y 0, y 1, y 2)
  invFun q := ix3 q.1 q.2.1 q.2.2
  left_inv y := (eq_ix3 y).symm
  right_inv q := rfl

/-- A sum over a rank-3 index set is the triple sum over the coordinates. -/
theorem sum_idx3 {M : Type*} [AddCommMonoid M] {a b d : Nat} (f : (⟨3, ![a, b, d]⟩ : Shape).Idx → M) :
    ∑ y, f y = ∑ p : Fin a, ∑ r : Fin b, ∑ l : Fin d, f (ix3 p r l) := by
  rw [← Equiv.sum_comp (idx3Equiv (a := a) (b := b) (d := d)).symm f, Fintype.sum_prod_type]
  refine Finset.sum_congr rfl fun p _ => ?_
  rw [Fintype.sum_prod_type]
  rfl

/-- Summing an [8,128] tile that is g at entry (0,0) and zero elsewhere gives g. -/
theorem sum_corner (g : EReal) : (∑ r : Fin 8, ∑ l : Fin 128, if r.val = 0 ∧ l.val = 0 then g else 0) = g := by
  rw [Finset.sum_eq_single (0 : Fin 8), Finset.sum_eq_single (0 : Fin 128)]
  · simp
  · intro l _ hl
    rw [if_neg]
    rintro ⟨_, h⟩
    exact hl (Fin.ext h)
  · intro h
    exact absurd (Finset.mem_univ _) h
  · intro r _ hr
    refine Finset.sum_eq_zero fun l _ => ?_
    rw [if_neg]
    rintro ⟨h, _⟩
    exact hr (Fin.ext h)
  · intro h
    exact absurd (Finset.mem_univ _) h

/-- A sum over the 64 tiles is the double sum over the grid's 2 rows and 32 positions. -/
theorem sum_tiles_eq_grid (h : Fin 64 → EReal) : ∑ T, h T = ∑ p : Fin 2, ∑ u : Fin 32, h (tileOf (pt p u)) := by
  rw [← Finset.sum_product', Finset.univ_product_univ]
  refine (Fintype.sum_equiv (finProdFinEquiv (m := 2) (n := 32)) _ _ (fun q => ?_)).symm
  refine congrArg h (Fin.ext ?_)
  show 32 * q.1.val + q.2.val = q.2.val + 32 * q.1.val
  omega

/-- The total of the output array is the three sums over all edges. -/
theorem sum_outArr :
    ∑ y : S2x8x128.Idx, outArr m c y = edgeLoss (W1m m c) (b1m m c) (W2m m c) (b2m m c) (Xim m c) (Xjm m c) (labm m c) := by
  rw [sum_idx3]
  simp only [outArr_apply, sum_corner, pointLossAt_eq]
  rw [← sum_tileLoss, sum_tiles_eq_grid]

/-- The program's result: the three sums over all edges plus the weight-norm term. -/
theorem tailVal_value :
    tailVal m c = fun _ => edgeLoss (W1m m c) (b1m m c) (W2m m c) (b2m m c) (Xim m c) (Xjm m c) (labm m c) + regm m c := by
  rw [tailVal_eq, sum_outArr, zero_add]

/-- Every weakly fair execution of the program terminates with its result buffer at that value and its arguments kept. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
          = (fun _ => edgeLoss (W1m m c) (b1m m c) (W2m m c) (b2m m c) (Xim m c) (Xjm m c) (labm m c) + regm m c : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v38 (Pipeline.mem_restRefs_of main_v38 (by decide) (by decide))).trans (tailVal_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Loss

end
-- ==== Proof.lean ====
/-
  The certificate's five claims.

  Frames: the kernel program's two frames (word level and idealized) are the generated frame theorems; the
  reference is a host program, and its frame is its run with the result forgotten.
  The idealization rewrote nothing, so there is nothing to preserve.
  Equivalence over the extended reals: the idealized kernel ends with its result at
      (Σ_e term1 + Σ_e term2) + Σ_e term3 + R
  (the three edge sums of EdgeTerms over the gathered feature rows, the float labels and the weights; R the
  weight-norm term) — tile by tile through the grid, the output array's two non-zero entries, the host's total —
  and the reference ends at the same expression of the same arguments, summed over all edges at once.
-/
import proofs.«403131_j63050119906009_2_alg».proof.Defs
import proofs.«403131_j63050119906009_2_alg».proof.Proof.Gen.Kernel
import proofs.«403131_j63050119906009_2_alg».proof.Proof.Gen.Kernel.Frame
import proofs.«403131_j63050119906009_2_alg».proof.Proof.Gen.KernelIdeal
import proofs.«403131_j63050119906009_2_alg».proof.Proof.Gen.KernelIdeal.Frame
import proofs.«403131_j63050119906009_2_alg».proof.Proof.Gen.ReferenceIdeal
import proofs.«403131_j63050119906009_2_alg».proof.Proof.Gen.Pre_finite_inputs
import proofs.«403131_j63050119906009_2_alg».proof.Proof.RefRunP
import proofs.«403131_j63050119906009_2_alg».proof.Proof.RefReadP
import proofs.«403131_j63050119906009_2_alg».proof.Proof.RefLoss
import proofs.«403131_j63050119906009_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both idealized programs end at the three edge sums plus the weight-norm term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Loss.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v95_eq, Cert.ReferenceIdeal.Loss.ref_value,
    (hagree c).1, (hagree c).2.1, (hagree c).2.2.1, (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
